-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S1024x512 : Shape := ⟨2, ![1024, 512]⟩
abbrev S1x512 : Shape := ⟨2, ![1, 512]⟩
abbrev S3x1x512 : Shape := ⟨3, ![3, 1, 512]⟩
abbrev S3 : Shape := ⟨1, ![3]⟩
abbrev S_ : Shape := ⟨0, ![]⟩
abbrev S512 : Shape := ⟨1, ![512]⟩
abbrev S1 : Shape := ⟨1, ![1]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1024x512, .f32⟩
  | .local _ .vmem, ⟨1, _⟩ => ⟨S1x512, .f32⟩
  | .local _ .vmem, ⟨2, _⟩ => ⟨S1x512, .f32⟩
  | .local _ .vmem, ⟨3, _⟩ => ⟨S3x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v50 : BitVec 32 := Scalar.addi v2 c1_i32_31
  let c4_i32_32 : BitVec 32 := 4#32
  let c0_i32_33 : BitVec 32 := 0#32
  let v51 : BitVec 1 := Scalar.cmpi .eq c4_i32_32 c0_i32_33
  let c1_i32_34 : BitVec 32 := 1#32
  let v52 : BitVec 32 := Scalar.select v51 c1_i32_34 c4_i32_32
  let v53 : BitVec 32 := Scalar.remsi v50 v52
  let c0_i32_36 : BitVec 32 := 0#32
  let v55 : BitVec 1 := Scalar.cmpi .slt v53 c0_i32_36
  let c0_i32_37 : BitVec 32 := 0#32
  let v56 : BitVec 1 := Scalar.cmpi .slt v52 c0_i32_37
  let v57 : BitVec 1 := Scalar.xori v55 v56
  let c0_i32_35 : BitVec 32 := 0#32
  let v54 : BitVec 1 := Scalar.cmpi .ne v53 c0_i32_35
  let v58 : BitVec 1 := Scalar.andi v57 v54
  let v59 : BitVec 32 := Scalar.addi v53 v52
  let v60 : BitVec 32 := Scalar.select v58 v59 v53
  let c1_i32_41 : BitVec 32 := 1#32
  let v61 : BitVec 32 := Scalar.muli v60 c1_i32_41
  let v62 : BitVec 32 := Scalar.addi c0_i32_42 v61
  v62.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v69 : BitVec 32 := Scalar.addi v2 c2_i32_45
  let c4_i32_46 : BitVec 32 := 4#32
  let c0_i32_47 : BitVec 32 := 0#32
  let v70 : BitVec 1 := Scalar.cmpi .eq c4_i32_46 c0_i32_47
  let c1_i32_48 : BitVec 32 := 1#32
  let v71 : BitVec 32 := Scalar.select v70 c1_i32_48 c4_i32_46
  let v72 : BitVec 32 := Scalar.remsi v69 v71
  let c0_i32_50 : BitVec 32 := 0#32
  let v74 : BitVec 1 := Scalar.cmpi .slt v72 c0_i32_50
  let c0_i32_51 : BitVec 32 := 0#32
  let v75 : BitVec 1 := Scalar.cmpi .slt v71 c0_i32_51
  let v76 : BitVec 1 := Scalar.xori v74 v75
  let c0_i32_49 : BitVec 32 := 0#32
  let v73 : BitVec 1 := Scalar.cmpi .ne v72 c0_i32_49
  let v77 : BitVec 1 := Scalar.andi v76 v73
  let v78 : BitVec 32 := Scalar.addi v72 v71
  let v79 : BitVec 32 := Scalar.select v77 v78 v72
  let c1_i32_55 : BitVec 32 := 1#32
  let v80 : BitVec 32 := Scalar.muli v79 c1_i32_55
  let v81 : BitVec 32 := Scalar.addi c0_i32_56 v80
  v81.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v88 : BitVec 32 := Scalar.addi v2 c3_i32_59
  let c4_i32_60 : BitVec 32 := 4#32
  let c0_i32_61 : BitVec 32 := 0#32
  let v89 : BitVec 1 := Scalar.cmpi .eq c4_i32_60 c0_i32_61
  let c1_i32_62 : BitVec 32 := 1#32
  let v90 : BitVec 32 := Scalar.select v89 c1_i32_62 c4_i32_60
  let v91 : BitVec 32 := Scalar.remsi v88 v90
  let c0_i32_64 : BitVec 32 := 0#32
  let v93 : BitVec 1 := Scalar.cmpi .slt v91 c0_i32_64
  let c0_i32_65 : BitVec 32 := 0#32
  let v94 : BitVec 1 := Scalar.cmpi .slt v90 c0_i32_65
  let v95 : BitVec 1 := Scalar.xori v93 v94
  let c0_i32_63 : BitVec 32 := 0#32
  let v92 : BitVec 1 := Scalar.cmpi .ne v91 c0_i32_63
  let v96 : BitVec 1 := Scalar.andi v95 v92
  let v97 : BitVec 32 := Scalar.addi v91 v90
  let v98 : BitVec 32 := Scalar.select v96 v97 v91
  let c1_i32_69 : BitVec 32 := 1#32
  let v99 : BitVec 32 := Scalar.muli v98 c1_i32_69
  let v100 : BitVec 32 := Scalar.addi c0_i32_70 v99
  v100.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  hamt_3 : (3#32 : BitVec 32).msb = false
  inb_S3_S1_0 : ∀ a, (![0] : Fin 1 → Nat) a + S1.size a ≤ S3.size a
  squeezes_S1_S_ : S1.Squeezes S_
  inb_S3x1x512_S1x1x512_0_0_0 : ∀ a, (![0, 0, 0] : Fin 3 → Nat) a + S1x1x512.size a ≤ S3x1x512.size a
  squeezes_S1x1x512_S1x512 : S1x1x512.Squeezes S1x512
  inb_S3_S1_1 : ∀ a, (![1] : Fin 1 → Nat) a + S1.size a ≤ S3.size a
  inb_S3x1x512_S1x1x512_1_0_0 : ∀ a, (![1, 0, 0] : Fin 3 → Nat) a + S1x1x512.size a ≤ S3x1x512.size a
  inb_S3_S1_2 : ∀ a, (![2] : Fin 1 → Nat) a + S1.size a ≤ S3.size a
  inb_S3x1x512_S1x1x512_2_0_0 : ∀ a, (![2, 0, 0] : Fin 3 → Nat) a + S1x1x512.size a ≤ S3x1x512.size a
  h_S1x1x512 : 0 < S1x1x512.numel
  shapeCasts_S1x1x512_S1x512 : S1x1x512.ShapeCasts S1x512
  hcc0_scratch2 : 2 + S3.numel ≤ 8
  hcc0_scratch3 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch2 : DmaSems sig S3 := SemArray.consecutive 2 S3 hcc0_scratch2
abbrev cc0_scratch3 : DmaSems sig S3 := SemArray.consecutive 5 S3 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩
abbrev S_ : Shape := ⟨0, ![]⟩
abbrev S512 : Shape := ⟨1, ![512]⟩
abbrev S1x512 : Shape := ⟨2, ![1, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S_, .f32⟩
  | .hbm, ⟨2, _⟩ => ⟨S512, .f32⟩
  | .hbm, ⟨3, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S4096x512_S512_d0 : S4096x512.ReducesTo [0] S512
  h_S_ : 0 < S_.numel
  bcast_S512_S1x512_1 : S512.BroadcastsInDim S1x512 (![1] : Fin 1 → Fin S1x512.rank)

variable [Facts₀]

class Facts : Prop extends Facts₀ where

variable [Facts]
-- ==== Proof.Kernel.Protocol.lean ====
/-
  The cross-device protocol of the four-device column sum, and what every buffer holds at each stage.

  Device c holds block c (1024 rows) of a 4096 x 512 array. It adds up the rows of its block into a 1 x 512 row
  acc(c), kept in its first scratch buffer, and every device sends its row to each of the three others: the copy at
  offset k + 1 (k = 0, 1, 2) goes from device c into slot k of the second scratch buffer of device c + k + 1 (mod 4), so
  slot k of device c ends holding acc(c - (k + 1)), that is acc(c + 3 - k). The result on every device is
  acc(c) + slot 0 + slot 1 + slot 2: each of the four rows once.

  Before its first copy a device signals the shared entry semaphore of each of the three others once and waits for three
  units on its own: so every peer is inside the kernel, its slots its own to give away. The signal device c sends at
  offset off carries slot 3 - off of c's second scratch buffer to device c + off, which is exactly the slot that device
  later writes (it reaches c at offset 4 - off, slot 3 - off). Each copy has its own pair of semaphores: send k on the
  issuer gives back the share of acc(c) the copy read, receive k on the target hands the target its slot k, filled.

  One round per cell. The entry cell of device c has three duties of one unit: duty d is paid by device c + d + 1 and
  hands over that device's slot d, any contents, with the fact that the device stands at round 0 of its receive cell d.
  A send or receive cell has the one duty 0 of a row's credit.
-/
import proofs.«901072_g7700000000001073_dist_sum_ax0_shard0_i_m1024_n512_v7x_i4_f32_1_alg».proof.Proof.Gen.Kernel
import proofs.«901072_g7700000000001073_dist_sum_ax0_shard0_i_m1024_n512_v7x_i4_f32_1_alg».proof.Proof.Gen.Kernel.Skeleton
import proofs.«901072_g7700000000001073_dist_sum_ax0_shard0_i_m1024_n512_v7x_i4_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.AllSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy, and the protocol's with duties named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh: the device k places further round -/

def peer (c : Dev nD) (k : ℕ) : Dev nD := ⟨(c.val + k) % 4, Nat.mod_lt _ (by decide)⟩

theorem peer_peer (c : Dev nD) (a b : ℕ) : peer (peer c a) b = peer c (a + b) :=
  Fin.ext (by show ((c.val + a) % 4 + b) % 4 = (c.val + (a + b)) % 4; omega)
theorem peer_four (c : Dev nD) : peer c 4 = c :=
  Fin.ext (by show (c.val + 4) % 4 = c.val; have : c.val < 4 := c.isLt; omega)
theorem peer_inj (k : ℕ) {a b : Dev nD} (h : peer a k = peer b k) : a = b := by
  have h' : (a.val + k) % 4 = (b.val + k) % 4 := congrArg Fin.val h
  have ha : a.val < 4 := a.isLt
  have hb : b.val < 4 := b.isLt
  exact Fin.ext (by omega)

/-- The device chains the body computes, in closed form: the three signals name the devices 1, 2, 3 places on, and so do
    the three copies. -/
theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 1 := by revert c; decide +kernel
theorem dev5_eq (c : Dev nD) : (⟨k0_dev5 c, k0_dev5_lt c⟩ : Dev nD) = peer c 2 := by revert c; decide +kernel
theorem dev6_eq (c : Dev nD) : (⟨k0_dev6 c, k0_dev6_lt c⟩ : Dev nD) = peer c 3 := by revert c; decide +kernel

/-- Going k places on is a bijection of the mesh, going 4 - k places on its inverse. -/
def turn (k : ℕ) (hk : k ≤ 4) : Dev nD ≃ Dev nD :=
  ⟨fun c => peer c k, fun c => peer c (4 - k),
    fun c => by show peer (peer c k) (4 - k) = c; rw [peer_peer, show k + (4 - k) = 4 by omega, peer_four],
    fun c => by show peer (peer c (4 - k)) k = c; rw [peer_peer, show 4 - k + k = 4 by omega, peer_four]⟩

/-! ## The memrefs, the slots, the cells -/

abbrev xM : Memref sig .tc .vmem S1024x512 .f32 := Memref.whole cc0_stg0_0
abbrev oM : Memref sig .tc .vmem S1x512 .f32 := Memref.whole cc0_stg1_0
abbrev aM : Memref sig .tc .vmem S1x512 .f32 := Memref.whole cc0_scratch0
abbrev qM : Memref sig .tc .vmem S3x1x512 .f32 := Memref.whole cc0_scratch1

/-- Row k of the second scratch buffer, as a rectangle of it; -/
abbrev rowR : Fin 3 → Rect S3x1x512 := fun
  | 0 => Rect.unit (s := S3x1x512) ![0, 0, 0] S1x1x512.size inb_S3x1x512_S1x1x512_0_0_0
  | 1 => Rect.unit (s := S3x1x512) ![1, 0, 0] S1x1x512.size inb_S3x1x512_S1x1x512_1_0_0
  | 2 => Rect.unit (s := S3x1x512) ![2, 0, 0] S1x1x512.size inb_S3x1x512_S1x1x512_2_0_0
/-- and as the 1 x 512 memref a copy lands in. -/
abbrev slotM : Fin 3 → Memref sig .tc .vmem S1x512 .f32 := fun
  | 0 => (qM.slice (Rect.unit (s := S3x1x512) ![0, 0, 0] S1x1x512.size inb_S3x1x512_S1x1x512_0_0_0) (fun _ => rfl)).squeeze S1x512 squeezes_S1x1x512_S1x512
  | 1 => (qM.slice (Rect.unit (s := S3x1x512) ![1, 0, 0] S1x1x512.size inb_S3x1x512_S1x1x512_1_0_0) (fun _ => rfl)).squeeze S1x512 squeezes_S1x1x512_S1x512
  | 2 => (qM.slice (Rect.unit (s := S3x1x512) ![2, 0, 0] S1x1x512.size inb_S3x1x512_S1x1x512_2_0_0) (fun _ => rfl)).squeeze S1x512 squeezes_S1x1x512_S1x512

/-- The shared entry semaphore; the three send and the three receive semaphores. -/
abbrev barS : Sem sig := (SemArray.scalar (sig.barrier 0 rfl) : Sems sig S_).sem
abbrev sendS : Fin 3 → DmaSem sig := fun
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem
abbrev recvS : Fin 3 → DmaSem sig := fun
  | 0 => ((cc0_scratch3.slice (Rect.unit (s := S3) ![0] S1.size inb_S3_S1_0)).squeeze S_ squeezes_S1_S_).sem
  | 1 => ((cc0_scratch3.slice (Rect.unit (s := S3) ![1] S1.size inb_S3_S1_1)).squeeze S_ squeezes_S1_S_).sem
  | 2 => ((cc0_scratch3.slice (Rect.unit (s := S3) ![2] S1.size inb_S3_S1_2)).squeeze S_ squeezes_S1_S_).sem

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The kernel's own (scoped) semaphores as the launch indexes them: send 0-2, receive 0-2; -/
abbrev osem : Fin 6 → SemLoc sig := fun
  | 0 => .dma (sendS 0) | 1 => .dma (sendS 1) | 2 => .dma (sendS 2) | 3 => .dma (recvS 0) | 4 => .dma (recvS 1) | 5 => .dma (recvS 2)
/-- all seven of the protocol's: the entry semaphore first. -/
abbrev csem : Fin 7 → SemLoc sig := fun
  | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)

theorem sendS_val (k : Fin 3) : (sendS k).val = 2 + k.val := by fin_cases k <;> rfl
theorem recvS_val (k : Fin 3) : (recvS k).val = 5 + k.val := by fin_cases k <;> rfl

theorem send_ne_bar (k : Fin 3) : (SemLoc.dma (sendS k) : SemLoc sig) ≠ .reg barS := fun h => by cases h
theorem recv_ne_bar (k : Fin 3) : (SemLoc.dma (recvS k) : SemLoc sig) ≠ .reg barS := fun h => by cases h
theorem send_ne_recv (j k : Fin 3) : (SemLoc.dma (sendS j) : SemLoc sig) ≠ .dma (recvS k) := fun h => by
  have := congrArg Fin.val (SemLoc.dma.inj h); rw [sendS_val, recvS_val] at this; have := j.isLt; omega
theorem recv_ne_send (j k : Fin 3) : (SemLoc.dma (recvS j) : SemLoc sig) ≠ .dma (sendS k) := fun h => send_ne_recv k j h.symm
theorem sendS_inj {j k : Fin 3} (h : (SemLoc.dma (sendS j) : SemLoc sig) = .dma (sendS k)) : j = k := by
  have := congrArg Fin.val (SemLoc.dma.inj h); rw [sendS_val, sendS_val] at this; exact Fin.ext (by omega)
theorem recvS_inj {j k : Fin 3} (h : (SemLoc.dma (recvS j) : SemLoc sig) = .dma (recvS k)) : j = k := by
  have := congrArg Fin.val (SemLoc.dma.inj h); rw [recvS_val, recvS_val] at this; exact Fin.ext (by omega)

/-- The credit of one 1 x 512 row. -/
abbrev N : ℕ := (aM : Memref sig .tc .vmem S1x512 .f32).view.dmaCredit
theorem N_pos : 0 < N := View.dmaCredit_pos _ (by decide)

/-! ## Contents -/

/-- Device c's block of the argument, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- The column sums of device c's block: what its first scratch buffer holds from the store on. -/
def accv (c : Dev nD) : (cc0_scratch0 : Ref sig .tc).ty.Contents (Elt F) := k0_pay1 (xstg m ρ c)

/-- The result on device c: its own row and the rows that landed in its slots 0, 1, 2, from the devices 3, 2, 1 places on. -/
def outAt (c : Dev nD) : (cc0_stg1_0 : Ref sig .tc).ty.Contents (Elt F) :=
  addf (addf (addf (accv m ρ c) (accv m ρ (peer c 3))) (accv m ρ (peer c 2))) (accv m ρ (peer c 1))

/-- The three shares under which the three copies read the first scratch buffer at once. -/
def shr : Fin 3 → PosShare TreeShare := fun
  | 0 => fullShare.left | 1 => fullShare.right.left | 2 => fullShare.right.right

def xPts (c : Dev nD) : sProp 𝕄 :=
  (xM : Memref sig .tc .vmem S1024x512 .f32).view.loc (c : Thread nD τ) ↦[(xM : Memref sig .tc .vmem S1024x512 .f32).view.set]{fullShare} xstg m ρ c
def aPts (c : Dev nD) (q : PosShare TreeShare) (f : Buf (Elt F) ((aM : Memref sig .tc .vmem S1x512 .f32).view.loc (c : Thread nD τ))) : sProp 𝕄 :=
  (aM : Memref sig .tc .vmem S1x512 .f32).view.loc (c : Thread nD τ) ↦[(aM : Memref sig .tc .vmem S1x512 .f32).view.set]{q} f
def slotPts (c : Dev nD) (k : Fin 3) (f : Buf (Elt F) ((slotM k).view.loc (c : Thread nD τ))) : sProp 𝕄 :=
  (slotM k).view.loc (c : Thread nD τ) ↦[(slotM k).view.set]{fullShare} f

instance xPts_storable (c : Dev nD) : BI.Storable (upEmb : UEmb _ 𝕄) (xPts (F := F) m ρ c) := by unfold xPts; infer_instance
instance aPts_storable (c : Dev nD) (q) (f) : BI.Storable (upEmb : UEmb _ 𝕄) (aPts (F := F) c q f) := by unfold aPts; infer_instance
instance slotPts_storable (c : Dev nD) (k) (f) : BI.Storable (upEmb : UEmb _ 𝕄) (slotPts (F := F) c k f) := by unfold slotPts; infer_instance

/-! ## The schedule -/

/-- Duty d of device c's entry cell, paid by the device d + 1 places on: that device's slot d, and that it stands at round
    0 of its receive cell d — what c's copy into that slot needs. -/
def barPay (c : Dev nD) (d : Fin 3) : sProp 𝕄 :=
  iprop((∃ f, slotPts (peer c (d.val + 1)) d f) ∗ reached ER (recvCell (peer c (d.val + 1)) d) 0)
/-- Receive cell k hands device c its slot k holding the row of the device 3 - k places on, over whatever it held. -/
def recvPay (c : Dev nD) (k : Fin 3) : sProp 𝕄 :=
  iprop(∃ fd, slotPts c k ((slotM k).view.write (Elt F) fd (accv m ρ (peer c (3 - k.val))) Finset.univ))
/-- Send cell k gives back the share of the first scratch buffer copy k read. -/
def sendPay (c : Dev nD) (k : Fin 3) : sProp 𝕄 := aPts c (shr k) (accv m ρ c)

abbrev IsBar (g : GSem nD τ sig) : Prop := g.1.2 = .tc ∧ g.2 = .reg barS
abbrev IsXfer (g : GSem nD τ sig) : Prop := g.1.2 = .tc ∧ ∃ k : Fin 3, g.2 = .dma (sendS k) ∨ g.2 = .dma (recvS k)

def sched : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (recvS 0) then recvPay m ρ g.1.1 0
    else if g.2 = .dma (recvS 1) then recvPay m ρ g.1.1 1
    else if g.2 = .dma (recvS 2) then recvPay m ρ g.1.1 2
    else if g.2 = .dma (sendS 0) then sendPay m ρ g.1.1 0
    else if g.2 = .dma (sendS 1) then sendPay m ρ g.1.1 1
    else if g.2 = .dma (sendS 2) then sendPay m ρ g.1.1 2
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  show BI.Storable upEmb (if g.2 = .reg barS then barPay g.1.1 d
    else if g.2 = .dma (recvS 0) then recvPay m ρ g.1.1 0
    else if g.2 = .dma (recvS 1) then recvPay m ρ g.1.1 1
    else if g.2 = .dma (recvS 2) then recvPay m ρ g.1.1 2
    else if g.2 = .dma (sendS 0) then sendPay m ρ g.1.1 0
    else if g.2 = .dma (sendS 1) then sendPay m ρ g.1.1 1
    else if g.2 = .dma (sendS 2) then sendPay m ρ g.1.1 2
    else iprop(emp))
  unfold barPay recvPay sendPay slotPts aPts
  (repeat' split) <;> infer_instance

/-! ## The schedule's tables, cell by cell -/

section Tables
variable (c : Dev nD)

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem not_bar_send (k : Fin 3) : ¬ IsBar (sendCell c k) := fun h => send_ne_bar k h.2
theorem not_bar_recv (k : Fin 3) : ¬ IsBar (recvCell c k) := fun h => recv_ne_bar k h.2

theorem duties_bar : (sched (F := F) m ρ).duties (barCell c) 0 = Finset.univ := by dsimp only [sched]; exact if_pos ⟨rfl, rfl, rfl⟩
theorem duties_send (k : Fin 3) : (sched (F := F) m ρ).duties (sendCell c k) 0 = {0} := by
  dsimp only [sched]; rw [if_neg (fun h => not_bar_send c k h.2)]; exact if_pos ⟨rfl, rfl, k, .inl rfl⟩
theorem duties_recv (k : Fin 3) : (sched (F := F) m ρ).duties (recvCell c k) 0 = {0} := by
  dsimp only [sched]; rw [if_neg (fun h => not_bar_recv c k h.2)]; exact if_pos ⟨rfl, rfl, k, .inr rfl⟩
theorem duties_later (g : GSem nD τ sig) : ∀ r, 1 ≤ r → (sched (F := F) m ρ).duties g r = ∅ :=
  fun r hr => by dsimp only [sched]; rw [if_neg fun h => by omega, if_neg fun h => by omega]

theorem amount_bar (d : Fin 3) : (sched (F := F) m ρ).amount (barCell c) 0 d = 1 := by dsimp only [sched]; exact if_pos rfl
theorem amount_send (k d : Fin 3) : (sched (F := F) m ρ).amount (sendCell c k) 0 d = N := by dsimp only [sched]; exact if_neg (send_ne_bar k)
theorem amount_recv (k d : Fin 3) : (sched (F := F) m ρ).amount (recvCell c k) 0 d = N := by dsimp only [sched]; exact if_neg (recv_ne_bar k)

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (k : Fin 3) : (sched (F := F) m ρ).expect (sendCell c k) 0 = N := by
  unfold Schedule.expect Schedule.amountOf; rw [duties_send, Finset.sum_singleton, amount_send]
theorem expect_recv (k : Fin 3) : (sched (F := F) m ρ).expect (recvCell c k) 0 = N := by
  unfold Schedule.expect Schedule.amountOf; rw [duties_recv, Finset.sum_singleton, amount_recv]

theorem payload_bar (d : Fin 3) : (sched (F := F) m ρ).payload (barCell c) 0 d = barPay c d := by dsimp only [sched]; rw [if_pos rfl]
theorem payload_recv (k d : Fin 3) : (sched (F := F) m ρ).payload (recvCell c k) 0 d = recvPay m ρ c k := by
  dsimp only [sched]; rw [if_neg (recv_ne_bar k)]
  fin_cases k
  · rw [if_pos rfl]; rfl
  · rw [if_neg (fun h => absurd (recvS_inj h) (by decide)), if_pos rfl]; rfl
  · rw [if_neg (fun h => absurd (recvS_inj h) (by decide)), if_neg (fun h => absurd (recvS_inj h) (by decide)), if_pos rfl]; rfl
theorem payload_send (k d : Fin 3) : (sched (F := F) m ρ).payload (sendCell c k) 0 d = sendPay m ρ c k := by
  dsimp only [sched]; rw [if_neg (send_ne_bar k), if_neg (send_ne_recv k 0), if_neg (send_ne_recv k 1), if_neg (send_ne_recv k 2)]
  fin_cases k
  · rw [if_pos rfl]; rfl
  · rw [if_neg (fun h => absurd (sendS_inj h) (by decide)), if_pos rfl]; rfl
  · rw [if_neg (fun h => absurd (sendS_inj h) (by decide)), if_neg (fun h => absurd (sendS_inj h) (by decide)), if_pos rfl]; rfl

/-- The whole of the entry cell's round, no duty taken: the three peers' slots. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3, payload_bar, payload_bar, payload_bar]
theorem rest_send (k : Fin 3) : bigSep ((sched (F := F) m ρ).duties (sendCell c k) 0 \ ∅) (fun d => (sched (F := F) m ρ).payload (sendCell c k) 0 d) = sendPay m ρ c k := by
  rw [Finset.sdiff_empty, duties_send, bigSep_singleton, payload_send]
theorem rest_recv (k : Fin 3) : bigSep ((sched (F := F) m ρ).duties (recvCell c k) 0 \ ∅) (fun d => (sched (F := F) m ρ).payload (recvCell c k) 0 d) = recvPay m ρ c k := by
  rw [Finset.sdiff_empty, duties_recv, bigSep_singleton, payload_recv]

end Tables

/-! ## What each device owes at launch; the levels -/

/-- One unit to the entry cell of the device off places on; a row's credit to receive cell k of the device k + 1 places on. -/
def tB (c : Dev nD) (off : ℕ) : CellTallies nD τ sig Unit := tallyAt (barCell (peer c off)) () 1
def tR (c : Dev nD) (k : Fin 3) : CellTallies nD τ sig Unit := tallyAt (recvCell (peer c (k.val + 1)) k) () N

/-- After its three signals a device owes the three copies; at launch also the three signals — summed so that each
    statement of the body pays the last summand left. -/
def O₃ (c : Dev nD) : CellTallies nD τ sig Unit := tR c 2 + tR c 1 + tR c 0
def O₀ (c : Dev nD) : CellTallies nD τ sig Unit := O₃ c + tB c 3 + tB c 2 + tB c 1

def L (g : GSem nD τ sig) : Finset Unit := if g.1.2 = .tc then {()} else ∅
/-- Entry cells at 1, receive cells at 2, everything else (staging, send) at 0: a wait on the entry cell is below the
    copies still owed, and every other wait happens owing nothing above it. -/
def lv (g : GSem nD τ sig) (_ : Unit) : ℕ := if g.2 = .reg barS then 1 else if (∃ k : Fin 3, g.2 = .dma (recvS k)) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (k : Fin 3) (u : Unit) : lv (recvCell c k) u = 2 := by
  dsimp only [lv]; rw [if_neg (recv_ne_bar k), if_pos ⟨k, rfl⟩]

theorem O₃_pos {c : Dev nD} {g : GSem nD τ sig} {u : Unit} (h : 0 < O₃ c g u) : ∃ k : Fin 3, g = recvCell (peer c (k.val + 1)) k := by
  unfold O₃ at h
  rcases Pipeline.add_pos_cases h with h | h
  · rcases Pipeline.add_pos_cases h with h | h
    · exact ⟨2, (Pipeline.tallyAt_pos h).1⟩
    · exact ⟨1, (Pipeline.tallyAt_pos h).1⟩
  · exact ⟨0, (Pipeline.tallyAt_pos h).1⟩

theorem O₀_pos {c : Dev nD} {g : GSem nD τ sig} {u : Unit} (h : 0 < O₀ c g u) :
    (∃ k : Fin 3, g = recvCell (peer c (k.val + 1)) k) ∨ ∃ off : ℕ, g = barCell (peer c off) := by
  unfold O₀ at h
  rcases Pipeline.add_pos_cases h with h | h
  · rcases Pipeline.add_pos_cases h with h | h
    · rcases Pipeline.add_pos_cases h with h | h
      · exact .inl (O₃_pos h)
      · exact .inr ⟨3, (Pipeline.tallyAt_pos h).1⟩
    · exact .inr ⟨2, (Pipeline.tallyAt_pos h).1⟩
  · exact .inr ⟨1, (Pipeline.tallyAt_pos h).1⟩

/-- A wait on a staging or send semaphore (level 0) is below everything a device owes at launch, and fine owing nothing. -/
theorem mayWait_low (c : Dev nD) (q : DmaSem sig) (hq : ∀ k : Fin 3, (SemLoc.dma q : SemLoc sig) ≠ .dma (recvS k))
    (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have h0 : lv ((c : Thread nD τ), SemLoc.dma q) () = 0 := by
      dsimp only [lv]; rw [if_neg (fun h => by cases h), if_neg (fun ⟨k, hk⟩ => hq k hk)]
    rw [h0]
    rcases O₀_pos hg with ⟨k, rfl⟩ | ⟨off, rfl⟩
    · exact ⟨by rw [L_tc]; exact Finset.mem_singleton_self _, by rw [lv_recv]; decide⟩
    · exact ⟨by rw [L_tc]; exact Finset.mem_singleton_self _, by rw [lv_bar]; decide⟩
  · rw [MayWait_zero]; iintro -; iempintro

/-- At its entry wait a device owes the three copies only: receive cells, above its entry cell. -/
theorem mayWait_bar (c : Dev nD) :
    (levAts L lv : sProp 𝕄) ⊢ MayWait (c : Thread nD τ) (.reg barS) () (O₃ c) :=
  Pipeline.mayWait_of_levAts (by rw [L_tc]; exact Finset.mem_singleton_self _) fun g u hg => by
    obtain ⟨k, rfl⟩ := O₃_pos hg
    exact ⟨by rw [L_tc]; exact Finset.mem_singleton_self _, by rw [lv_bar, lv_recv]; decide⟩

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def qPts (c : Dev nD) (f : Buf (Elt F) ((c : Thread nD τ).loc cc0_scratch1)) : sProp 𝕄 := ((c : Thread nD τ).loc cc0_scratch1) ↦{fullShare} f
def aWhole (c : Dev nD) (f : Buf (Elt F) ((c : Thread nD τ).loc cc0_scratch0)) : sProp 𝕄 := ((c : Thread nD τ).loc cc0_scratch0) ↦{fullShare} f

/-- Every cell's invariant, under the names K the launch allocated them at, and that every cell stands at round 0 at least. -/
def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

/-- The tokens of the duties device c pays: its three signals, its three copies' landings, its three copies' returns. -/
def payToks (c : Dev nD) : sProp 𝕄 :=
  iprop((dutyTok ER (barCell (peer c 1)) 0 2 ∗ dutyTok ER (barCell (peer c 2)) 0 1 ∗ dutyTok ER (barCell (peer c 3)) 0 0)
    ∗ (dutyTok ER (recvCell (peer c 1) 0) 0 0 ∗ dutyTok ER (recvCell (peer c 2) 1) 0 0 ∗ dutyTok ER (recvCell (peer c 3) 2) 0 0)
    ∗ (dutyTok ER (sendCell c 0) 0 0 ∗ dutyTok ER (sendCell c 1) 0 0 ∗ dutyTok ER (sendCell c 2) 0 0))
/-- What stays with device c: its positions on its seven cells, and those tokens. -/
def linear (c : Dev nD) : sProp 𝕄 :=
  iprop((bigSep Finset.univ fun k : Fin 7 => atPos ER (kcell (c, k)) 0 ∅ 0) ∗ payToks c)

def ghost (K : Dev nD × Fin 7 → ℕ) (c : Dev nD) : sProp 𝕄 := iprop(records m ρ K ∗ linear c)

/-- What device c's body starts from: the ghost state at some names, the credit of its four waits others pay, the levels. -/
def start (c : Dev nD) : sProp 𝕄 :=
  iprop((∃ K, ghost m ρ K c) ∗ cred (tallyAt (barCell c) () 3)
    ∗ (cred (tallyAt (recvCell c 0) () N) ∗ cred (tallyAt (recvCell c 1) () N) ∗ cred (tallyAt (recvCell c 2) () N)) ∗ levAts L lv)

def Φ₀ (c : Dev nD) : sProp 𝕄 := iprop(start m ρ c ∗ (∃ f, aWhole c f) ∗ ∃ f, qPts c f)
/-- After the point: the two scratch buffers whole again, the six own cells closed at zero. -/
def Φ₁ (c : Dev nD) : sProp 𝕄 :=
  iprop((∃ f, aWhole c f) ∗ (∃ f, qPts c f) ∗ bigSep Finset.univ fun j : Fin 6 => semVal ((c : Thread nD τ), osem j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem inv_at (K : Dev nD × Fin 7 → ℕ) (ck : Dev nD × Fin 7) :
    (bigSep Finset.univ fun ck : Dev nD × Fin 7 => (cellInv ER (sched m ρ) (K ck) (kcell ck) : sProp 𝕄)) ⊢ cellInv ER (sched m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

end Cert.Kernel.AllSum

end
-- ==== Proof.Kernel.Pieces.lean ====
/-
  The geometry of the two scratch buffers, and the body's loads and stores read as values.

  The second scratch buffer is three rows of 512; row k is slot k, and the three slots are disjoint and together the
  whole buffer, so the buffer held whole is the three slots held one by one, and back. The first scratch buffer is read
  by three copies at once: its full share is cut in three. A load of row k through the buffer reads only slot k, and what
  it reads, cast to a 1 x 512 row, is what the slot's own 1 x 512 view reads. The body's last payload adds the first
  scratch buffer's row and the three slots' rows.
-/
import proofs.«901072_g7700000000001073_dist_sum_ax0_shard0_i_m1024_n512_v7x_i4_f32_1_alg».proof.Proof.Kernel.Protocol
import Idealize.ShloMosaic.Lib.Pipeline.Value
import Idealize.ShloMosaic.Lib.Exec.Geometry

noncomputable section

namespace Cert.Kernel.AllSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole-buffer loads and stores at the origin -/

abbrev rX : Rect S1024x512 := Rect.unit (s := S1024x512) ![0, 0] S1024x512.size inb_S1024x512_S1024x512_0_0
abbrev rA : Rect S1x512 := Rect.unit (s := S1x512) ![0, 0] S1x512.size inb_S1x512_S1x512_0_0

theorem hz2 : (![0, 0] : Fin 2 → Nat) = fun _ => 0 := funext fun a => by fin_cases a <;> rfl

/-- The load of the whole argument block reads the block. -/
theorem read_x (f : (cc0_stg0_0 : Ref sig .tc).ty.Contents (Elt F)) :
    (xM : Memref sig .tc .vmem S1024x512 .f32).view.readAt (Elt F) rX.toLoadRect f = f :=
  Memref.readAt_unit_zero (Elt F) cc0_stg0_0 hz2 _ f
/-- The load of the whole first scratch buffer reads it. -/
theorem read_a (f : (cc0_scratch0 : Ref sig .tc).ty.Contents (Elt F)) :
    (aM : Memref sig .tc .vmem S1x512 .f32).view.readAt (Elt F) rA.toLoadRect f = f :=
  Memref.readAt_unit_zero (Elt F) cc0_scratch0 hz2 _ f
/-- The store of a whole row into the first scratch buffer leaves the row. -/
theorem write_a (f w : (cc0_scratch0 : Ref sig .tc).ty.Contents (Elt F)) :
    ((aM : Memref sig .tc .vmem S1x512 .f32).access rA : View sig .tc _ _ _).write (Elt F) f w Finset.univ = w :=
  Memref.write_access_unit_zero_univ (Elt F) cc0_scratch0 hz2 _ f w
/-- The store of a whole row into the result's staging buffer leaves the row. -/
theorem write_out (f w : (cc0_stg1_0 : Ref sig .tc).ty.Contents (Elt F)) :
    ((oM : Memref sig .tc .vmem S1x512 .f32).access rA : View sig .tc _ _ _).write (Elt F) f w Finset.univ = w :=
  Memref.write_access_unit_zero_univ (Elt F) cc0_stg1_0 hz2 _ f w

/-! ## The first scratch buffer by shares -/

theorem a_set : (aM : Memref sig .tc .vmem S1x512 .f32).view.set = Finset.univ := View.set_whole _

/-- The full share of the first scratch buffer is the three shares the three copies read under. -/
theorem a_split (c : Dev nD) (f : Buf (Elt F) ((c : Thread nD τ).loc cc0_scratch0)) :
    (aWhole c f : sProp 𝕄) ⊣⊢ iprop(aPts c (shr 0) f ∗ aPts c (shr 1) f ∗ aPts c (shr 2) f) := by
  unfold aWhole aPts
  rw [a_set]
  -- the full share is its left half and its right half, and the right half its own two halves
  have h1 : ((c : Thread nD τ).loc cc0_scratch0 ↦{fullShare} f : sProp 𝕄)
      ⊣⊢ iprop(((c : Thread nD τ).loc cc0_scratch0 ↦{fullShare.left} f) ∗ ((c : Thread nD τ).loc cc0_scratch0 ↦{fullShare.right} f)) :=
    pointsTo_share (PosShare.mem_left_op_right fullShare)
  have h2 : ((c : Thread nD τ).loc cc0_scratch0 ↦{fullShare.right} f : sProp 𝕄)
      ⊣⊢ iprop(((c : Thread nD τ).loc cc0_scratch0 ↦{fullShare.right.left} f) ∗ ((c : Thread nD τ).loc cc0_scratch0 ↦{fullShare.right.right} f)) :=
    pointsTo_share (PosShare.mem_left_op_right fullShare.right)
  exact ⟨h1.1.trans (sep_mono_r h2.1), (sep_mono_r h2.2).trans h1.2⟩

/-! ## The second scratch buffer by slots -/

/-- Slot k's elements are those of row k of the buffer: the squeeze keeps the element set, and a slice of a whole
    buffer has its rectangle's. -/
theorem slot_set0 : (slotM 0).view.set = (rowR 0).set :=
  (Memref.set_view_squeeze _ squeezes_S1x1x512_S1x512).trans (View.set_slice_whole cc0_scratch1 _)
theorem slot_set1 : (slotM 1).view.set = (rowR 1).set :=
  (Memref.set_view_squeeze _ squeezes_S1x1x512_S1x512).trans (View.set_slice_whole cc0_scratch1 _)
theorem slot_set2 : (slotM 2).view.set = (rowR 2).set :=
  (Memref.set_view_squeeze _ squeezes_S1x1x512_S1x512).trans (View.set_slice_whole cc0_scratch1 _)

/-- An element lies in row k exactly when its first coordinate is k: the other two coordinates range over the whole
    of their axes. -/
theorem mem_row (k : ℕ) (hk : ∀ a, (![k, 0, 0] : Fin 3 → ℕ) a + S1x1x512.size a ≤ S3x1x512.size a) (i : S3x1x512.Idx) :
    i ∈ (Rect.unit (s := S3x1x512) ![k, 0, 0] S1x1x512.size hk).set ↔ (i 0 : ℕ) = k := by
  rw [Rect.mem_set_unit]
  have h1 : (i 1 : ℕ) < 1 := (i 1).isLt
  have h2 : (i 2 : ℕ) < 512 := (i 2).isLt
  constructor
  · intro h
    have h0 : k ≤ (i 0 : ℕ) ∧ (i 0 : ℕ) < k + 1 := h 0
    omega
  · intro h a
    fin_cases a
    · show k ≤ (i 0 : ℕ) ∧ (i 0 : ℕ) < k + 1; omega
    · show 0 ≤ (i 1 : ℕ) ∧ (i 1 : ℕ) < 0 + 1; omega
    · show 0 ≤ (i 2 : ℕ) ∧ (i 2 : ℕ) < 0 + 512; omega

theorem mem_rowR (k : Fin 3) (i : S3x1x512.Idx) : i ∈ (rowR k).set ↔ (i 0 : ℕ) = k.val := by
  fin_cases k <;> exact mem_row _ _ i

/-- Different rows share no element, -/
theorem rows_disjoint {j k : Fin 3} (h : j ≠ k) : Disjoint (rowR j).set (rowR k).set :=
  Finset.disjoint_left.mpr fun i hj hk => by
    rw [mem_rowR] at hj hk; exact h (Fin.ext (hj.symm.trans hk))

/-- and the three rows are every element: the first coordinate is 0, 1 or 2. -/
theorem rows_cover : (rowR 0).set ∪ ((rowR 1).set ∪ (rowR 2).set) = (Finset.univ : Finset S3x1x512.Idx) := by
  ext i
  have h0 : (i 0 : ℕ) < 3 := (i 0).isLt
  have e : (i 0 : ℕ) = 0 ∨ (i 0 : ℕ) = 1 ∨ (i 0 : ℕ) = 2 := by omega
  refine ⟨fun _ => Finset.mem_univ i, fun _ => ?_⟩
  rcases e with e | e | e
  · exact Finset.mem_union_left _ ((mem_rowR 0 i).mpr e)
  · exact Finset.mem_union_right _ (Finset.mem_union_left _ ((mem_rowR 1 i).mpr e))
  · exact Finset.mem_union_right _ (Finset.mem_union_right _ ((mem_rowR 2 i).mpr e))

theorem rows_disjoint0 : Disjoint (rowR 0).set ((rowR 1).set ∪ (rowR 2).set) :=
  Finset.disjoint_union_right.mpr ⟨rows_disjoint (by decide), rows_disjoint (by decide)⟩

/-- A slot held is its row of the buffer held. -/
theorem slotPts_eq0 (c : Dev nD) (f : Buf (Elt F) ((c : Thread nD τ).loc cc0_scratch1)) :
    (slotPts c 0 f : sProp 𝕄) = ((c : Thread nD τ).loc cc0_scratch1 ↦[(rowR 0).set]{fullShare} f) := by
  unfold slotPts; rw [slot_set0]
theorem slotPts_eq1 (c : Dev nD) (f : Buf (Elt F) ((c : Thread nD τ).loc cc0_scratch1)) :
    (slotPts c 1 f : sProp 𝕄) = ((c : Thread nD τ).loc cc0_scratch1 ↦[(rowR 1).set]{fullShare} f) := by
  unfold slotPts; rw [slot_set1]
theorem slotPts_eq2 (c : Dev nD) (f : Buf (Elt F) ((c : Thread nD τ).loc cc0_scratch1)) :
    (slotPts c 2 f : sProp 𝕄) = ((c : Thread nD τ).loc cc0_scratch1 ↦[(rowR 2).set]{fullShare} f) := by
  unfold slotPts; rw [slot_set2]

/-- The buffer held whole is the union of its three rows held. -/
theorem qPts_eq (c : Dev nD) (f : Buf (Elt F) ((c : Thread nD τ).loc cc0_scratch1)) :
    (qPts c f : sProp 𝕄)
      = ((c : Thread nD τ).loc cc0_scratch1 ↦[(rowR 0).set ∪ ((rowR 1).set ∪ (rowR 2).set)]{fullShare} f) := by
  unfold qPts; rw [rows_cover]

/-- The second scratch buffer held whole is its three slots held one by one, at the same contents; -/
theorem q_split (c : Dev nD) (f : Buf (Elt F) ((c : Thread nD τ).loc cc0_scratch1)) :
    (qPts c f : sProp 𝕄) ⊣⊢ iprop(slotPts c 0 f ∗ slotPts c 1 f ∗ slotPts c 2 f) := by
  rw [qPts_eq, slotPts_eq0, slotPts_eq1, slotPts_eq2]
  have h1 : ((c : Thread nD τ).loc cc0_scratch1 ↦[(rowR 0).set ∪ ((rowR 1).set ∪ (rowR 2).set)]{fullShare} f : sProp 𝕄)
      ⊣⊢ iprop(((c : Thread nD τ).loc cc0_scratch1 ↦[(rowR 0).set]{fullShare} f)
        ∗ ((c : Thread nD τ).loc cc0_scratch1 ↦[(rowR 1).set ∪ (rowR 2).set]{fullShare} f)) :=
    pointsTo_union rows_disjoint0
  have h2 : ((c : Thread nD τ).loc cc0_scratch1 ↦[(rowR 1).set ∪ (rowR 2).set]{fullShare} f : sProp 𝕄)
      ⊣⊢ iprop(((c : Thread nD τ).loc cc0_scratch1 ↦[(rowR 1).set]{fullShare} f)
        ∗ ((c : Thread nD τ).loc cc0_scratch1 ↦[(rowR 2).set]{fullShare} f)) :=
    pointsTo_union (rows_disjoint (by decide))
  exact ⟨h1.1.trans (sep_mono_r h2.1), (sep_mono_r h2.2).trans h1.2⟩
/-- and three slots held at any three contents are the buffer held whole at some contents. -/
theorem q_join (c : Dev nD) (g0 g1 g2 : Buf (Elt F) ((c : Thread nD τ).loc cc0_scratch1)) :
    iprop(slotPts c 0 g0 ∗ slotPts c 1 g1 ∗ slotPts c 2 g2) ⊢ (iprop(∃ g, qPts c g) : sProp 𝕄) := by
  rw [slotPts_eq0, slotPts_eq1, slotPts_eq2]
  -- rows 1 and 2 joined, then row 0 with them: the contents are the three given, row by row
  refine (sep_mono_r (pointsTo_join (rows_disjoint (j := 1) (k := 2) (by decide)))).trans
    ((pointsTo_join rows_disjoint0).trans ?_)
  iintro H
  iexists _
  rw [qPts_eq]
  iexact H

/-- A load of row k through the whole buffer reads elements of slot k only. -/
theorem load_slot_sub0 : (qM : Memref sig .tc .vmem S3x1x512 .f32).view.setOn (rowR 0).toLoadRect.set ⊆ (slotM 0).view.set := by
  show (qM : Memref sig .tc .vmem S3x1x512 .f32).view.setOn (rowR 0).toLoadRect.set
    ⊆ (((qM : Memref sig .tc .vmem S3x1x512 .f32).slice (rowR 0) (fun _ => rfl)).squeeze S1x512 squeezes_S1x1x512_S1x512).view.set
  rw [Memref.set_view_squeeze]
  exact Memref.setOn_subset_slice_of_within qM (rowR 0) (fun _ => rfl) (rowR 0).toLoadRect (by decide)
theorem load_slot_sub1 : (qM : Memref sig .tc .vmem S3x1x512 .f32).view.setOn (rowR 1).toLoadRect.set ⊆ (slotM 1).view.set := by
  show (qM : Memref sig .tc .vmem S3x1x512 .f32).view.setOn (rowR 1).toLoadRect.set
    ⊆ (((qM : Memref sig .tc .vmem S3x1x512 .f32).slice (rowR 1) (fun _ => rfl)).squeeze S1x512 squeezes_S1x1x512_S1x512).view.set
  rw [Memref.set_view_squeeze]
  exact Memref.setOn_subset_slice_of_within qM (rowR 1) (fun _ => rfl) (rowR 1).toLoadRect (by decide)
theorem load_slot_sub2 : (qM : Memref sig .tc .vmem S3x1x512 .f32).view.setOn (rowR 2).toLoadRect.set ⊆ (slotM 2).view.set := by
  show (qM : Memref sig .tc .vmem S3x1x512 .f32).view.setOn (rowR 2).toLoadRect.set
    ⊆ (((qM : Memref sig .tc .vmem S3x1x512 .f32).slice (rowR 2) (fun _ => rfl)).squeeze S1x512 squeezes_S1x1x512_S1x512).view.set
  rw [Memref.set_view_squeeze]
  exact Memref.setOn_subset_slice_of_within qM (rowR 2) (fun _ => rfl) (rowR 2).toLoadRect (by decide)

/-! ## The last payload -/

/-- The body's last payload: the first scratch buffer's row plus the three rows loaded from the second, each cast to a
    1 x 512 row — that is, plus what each slot's own view reads. -/
theorem pay2_eq (a : Vec F S1x512 .f32) (g0 g1 g2 : (cc0_scratch1 : Ref sig .tc).ty.Contents (Elt F)) :
    k0_pay2 a ((qM : Memref sig .tc .vmem S3x1x512 .f32).view.readAt (Elt F) (rowR 0).toLoadRect g0)
        ((qM : Memref sig .tc .vmem S3x1x512 .f32).view.readAt (Elt F) (rowR 1).toLoadRect g1)
        ((qM : Memref sig .tc .vmem S3x1x512 .f32).view.readAt (Elt F) (rowR 2).toLoadRect g2)
      = addf (addf (addf a ((slotM 0).view.read (Elt F) g0)) ((slotM 1).view.read (Elt F) g1)) ((slotM 2).view.read (Elt F) g2) := by
  unfold k0_pay2
  rfl

end Cert.Kernel.AllSum

end
-- ==== Proof.Kernel.Body.lean ====
/-
  One device's body, stepped from its start to its end.

  The device gives away its three slots with its three entry signals (slot 2 to the device one place on, slot 1 two
  places on, slot 0 three places on), sums its block's rows into its first scratch buffer, and waits for the three
  units on its entry cell: with them come the three peers' slots it will write. It cuts the full share of its row in
  three, starts the three copies (copy k into slot k of the device k + 1 places on), and waits for each copy's send
  and receive cell in turn: the send cells give the three shares back, the receive cells hand over its own slots,
  slot k now holding the row of the device 3 - k places on. It closes its six own cells, joins the shares, and stores
  its row plus the three slots' rows into the result.
-/
import proofs.«901072_g7700000000001073_dist_sum_ax0_shard0_i_m1024_n512_v7x_i4_f32_1_alg».proof.Proof.Kernel.Protocol
import proofs.«901072_g7700000000001073_dist_sum_ax0_shard0_i_m1024_n512_v7x_i4_f32_1_alg».proof.Proof.Kernel.Pieces

noncomputable section

namespace Cert.Kernel.AllSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 7 → ℕ)

theorem sep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem sep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The duty a device pays with its signal at offset off hands over its OWN slot: the payer of duty d of the entry cell
    of the device off places on is the device d + 1 places further, which is the signaller when off + d + 1 = 4. -/
theorem barPay_mine (c : Dev nD) (off : ℕ) (d : Fin 3) (h : off + (d.val + 1) = 4) :
    (barPay (F := F) (peer c off) d) = iprop((∃ f, slotPts c d f) ∗ reached ER (recvCell c d) 0) := by
  unfold barPay; rw [peer_peer, h, peer_four]

/-- A slot's copy credit is a row's. -/
theorem slot_credit (k : Fin 3) : (slotM k).view.dmaCredit = N := by fin_cases k <;> rfl

/-- Copy k: device c sends its row, read under share k, into slot k of the device n = c + k + 1, whose contents it holds
    (the entry wait brought them); the send cell will give the share back, the receive cell hand n its slot filled. -/
theorem wp_send_slot (c n : Dev nD) (k : Fin 3) (hn : n = peer c (k.val + 1)) {κ₁ κ₂ : ℕ}
    {hsc : (slotM k : Memref sig (Dev.tc n : Thread nD τ).2.kind .vmem S1x512 .f32).view.ref.isScScratch = false}
    {hsrc : (aM : Memref sig .tc .vmem S1x512 .f32).view.WordExact} {hdst : (slotM k).view.WordExact}
    {hsem : DmaTarget.Typed .vmem (.dma (recvS k)) (.remote (Dev.tc n : Thread nD τ) (slotM k) (.dma (sendS k)) hsc)}
    {α : Type} {Q : α → sProp 𝕄} {kk : PUnit → Prog (TpuEff nD τ sig (Elt F) Λ₀ .tc) α}
    (fn : Buf (Elt F) ((slotM k).view.loc (peer c (k.val + 1) : Thread nD τ)))
    (O₁ O : CellTallies nD τ sig Unit) (hO : O₁ = O + tR c k) {W : Waits sig Unit} :
    iprop(cellInv ER (sched m ρ) κ₁ (sendCell c k) ∗ cellInv ER (sched m ρ) κ₂ (recvCell (peer c (k.val + 1)) k)
        ∗ aPts c (shr k) (accv m ρ c) ∗ slotPts (peer c (k.val + 1)) k fn
        ∗ owes (c : Thread nD τ) O₁ W
        ∗ dutyTok ER (sendCell c k) 0 0 ∗ reached ER (sendCell c k) 0
        ∗ dutyTok ER (recvCell (peer c (k.val + 1)) k) 0 0 ∗ reached ER (recvCell (peer c (k.val + 1)) k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma aM (.remote (Dev.tc n : Thread nD τ) (slotM k) (.dma (sendS k)) hsc) (.dma (recvS k)) hsrc hdst hsem) kk) Q) := by
  subst hn
  unfold aPts slotPts
  exact Rounds.wp_send_pointsTo 𝒱₀ ER (sched m ρ) (c : Thread nD τ) none (κ₁ := κ₁) (κ₂ := κ₂)
    (r₁ := 0) (r₂ := 0) (d₁ := 0) (d₂ := 0) (fd := fn)
    (by rw [duties_send]; exact Finset.mem_singleton_self _) (by rw [duties_recv]; exact Finset.mem_singleton_self _)
    () () N (show (slotM k).view.amount (.dma (recvS k)) = N from slot_credit k) (amount_send m ρ c k 0) (amount_recv m ρ (peer c (k.val + 1)) k 0) O hO (W := W)
    (by rw [payload_send]; unfold sendPay aPts; exact BI.Entails.refl _)
    (by
      rw [payload_recv]; unfold recvPay slotPts
      rw [peer_peer, show k.val + 1 + (3 - k.val) = 4 by have := k.isLt; omega, peer_four]
      iintro H; iexists fn; iexact H)

def bodyPre (c : Dev nD) : sProp 𝕄 :=
  iprop((ghost m ρ K c ∗ cred (tallyAt (barCell c) () 3)
      ∗ (cred (tallyAt (recvCell c 0) () N) ∗ cred (tallyAt (recvCell c 1) () N) ∗ cred (tallyAt (recvCell c 2) () N))
      ∗ levAts L lv ∗ (∃ f, aWhole c f) ∗ ∃ f, qPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 3200000 in
/-- The body, stepped from `bodyPre`, one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part5_eq_skeleton]; unfold k0_part5_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre ghost records linear payToks
  rw [sep_seven]
  iintro ⟨⟨⟨⟨⟨#HI, #HR⟩, ⟨HaB, HaS0, HaS1, HaS2, HaV0, HaV1, HaV2⟩, ⟨HtB1, HtB2, HtB3⟩, ⟨HtR0, HtR1, HtR2⟩, HtS0, HtS1, HtS2⟩,
      HcB, ⟨HcV0, HcV1, HcV2⟩, #Hlev, ⟨%fa, Ha⟩, ⟨%fq, Hq⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the invariants and round-0 marks of the cells this device touches
  ihave #HIbar := (inv_at m ρ K (c, 0)) $$ HI
  ihave #HIs0 := (inv_at m ρ K (c, 1)) $$ HI
  ihave #HIs1 := (inv_at m ρ K (c, 2)) $$ HI
  ihave #HIs2 := (inv_at m ρ K (c, 3)) $$ HI
  ihave #HIv0 := (inv_at m ρ K (c, 4)) $$ HI
  ihave #HIv1 := (inv_at m ρ K (c, 5)) $$ HI
  ihave #HIv2 := (inv_at m ρ K (c, 6)) $$ HI
  ihave #HIb1 := (inv_at m ρ K (peer c 1, 0)) $$ HI
  ihave #HIb2 := (inv_at m ρ K (peer c 2, 0)) $$ HI
  ihave #HIb3 := (inv_at m ρ K (peer c 3, 0)) $$ HI
  ihave #HIp0 := (inv_at m ρ K (peer c 1, 4)) $$ HI
  ihave #HIp1 := (inv_at m ρ K (peer c 2, 5)) $$ HI
  ihave #HIp2 := (inv_at m ρ K (peer c 3, 6)) $$ HI
  ihave #HRs0 := (reached_at (F := F) (c, 1)) $$ HR
  ihave #HRs1 := (reached_at (F := F) (c, 2)) $$ HR
  ihave #HRs2 := (reached_at (F := F) (c, 3)) $$ HR
  ihave #HRv0 := (reached_at (F := F) (c, 4)) $$ HR
  ihave #HRv1 := (reached_at (F := F) (c, 5)) $$ HR
  ihave #HRv2 := (reached_at (F := F) (c, 6)) $$ HR
  ihave #HRb1 := (reached_at (F := F) (peer c 1, 0)) $$ HR
  ihave #HRb2 := (reached_at (F := F) (peer c 2, 0)) $$ HR
  ihave #HRb3 := (reached_at (F := F) (peer c 3, 0)) $$ HR
  ihave #HRp0 := (reached_at (F := F) (peer c 1, 4)) $$ HR
  ihave #HRp1 := (reached_at (F := F) (peer c 2, 5)) $$ HR
  ihave #HRp2 := (reached_at (F := F) (peer c 3, 6)) $$ HR
  unfold O₀
  simp only [dev1_eq c, dev2_eq c, dev3_eq c, dev4_eq c, dev5_eq c, dev6_eq c]
  -- the second scratch buffer as its three slots
  ihave Hq3 := (q_split c fq).1 $$ Hq
  icases Hq3 with ⟨Hq0, Hq1, Hq2⟩
  unfold aWhole
  -- the signal to the device 1 place(s) on: duty 2 of its entry cell, with this device's slot 2
  iapply (Rounds.wp_signal 𝒱₀ ER (sched m ρ) (c : Thread nD τ) none (dst := (peer c 1 : Thread nD τ)) (κ := K (peer c 1, 0))
      (d := 2) (by rw [duties_bar]; exact Finset.mem_univ _) ((amount_bar m ρ (peer c 1) 2).trans (by decide)) () (O₃ c + tB c 3 + tB c 2) rfl)
    $$ [HO HtB1 Hq2]
  · isplitr; · iexact HIb1
    isplitl [HO]; · iexact HO
    isplitl [HtB1]; · iexact HtB1
    isplitl [Hq2]
    · rw [payload_bar, barPay_mine c 1 2 (by decide)]
      isplitl [Hq2]; · iexists fq; iexact Hq2
      iexact HRv2
    · iexact HRb1
  iintro HO
  -- the signal to the device 2 place(s) on: duty 1 of its entry cell, with this device's slot 1
  iapply (Rounds.wp_signal 𝒱₀ ER (sched m ρ) (c : Thread nD τ) none (dst := (peer c 2 : Thread nD τ)) (κ := K (peer c 2, 0))
      (d := 1) (by rw [duties_bar]; exact Finset.mem_univ _) ((amount_bar m ρ (peer c 2) 1).trans (by decide)) () (O₃ c + tB c 3) rfl)
    $$ [HO HtB2 Hq1]
  · isplitr; · iexact HIb2
    isplitl [HO]; · iexact HO
    isplitl [HtB2]; · iexact HtB2
    isplitl [Hq1]
    · rw [payload_bar, barPay_mine c 2 1 (by decide)]
      isplitl [Hq1]; · iexists fq; iexact Hq1
      iexact HRv1
    · iexact HRb2
  iintro HO
  -- the signal to the device 3 place(s) on: duty 0 of its entry cell, with this device's slot 0
  iapply (Rounds.wp_signal 𝒱₀ ER (sched m ρ) (c : Thread nD τ) none (dst := (peer c 3 : Thread nD τ)) (κ := K (peer c 3, 0))
      (d := 0) (by rw [duties_bar]; exact Finset.mem_univ _) ((amount_bar m ρ (peer c 3) 0).trans (by decide)) () (O₃ c) rfl)
    $$ [HO HtB3 Hq0]
  · isplitr; · iexact HIb3
    isplitl [HO]; · iexact HO
    isplitl [HtB3]; · iexact HtB3
    isplitl [Hq0]
    · rw [payload_bar, barPay_mine c 3 0 (by decide)]
      isplitl [Hq0]; · iexists fq; iexact Hq0
      iexact HRv0
    · iexact HRb3
  iintro HO
  -- the block's rows summed into the first scratch buffer
  iapply (wp_load 𝒱₀ (c : Thread nD τ) none Set.univ (m := xM) (Finset.subset_univ _)) $$ Hx; iintro Hx
  rw [read_x]
  iapply (wp_load 𝒱₀ (c : Thread nD τ) none Set.univ (m := aM) (Finset.subset_univ _)) $$ Ha; iintro Ha
  iapply (wp_store 𝒱₀ (c : Thread nD τ) none Set.univ (m := aM) (r := rA) (Mk := Finset.univ) (Finset.subset_univ _)) $$ Ha; iintro Ha
  rw [write_a, show k0_pay1 (xstg m ρ c) = accv m ρ c from rfl]
  -- the wait for three units on the entry cell, owing the three copies: the three peers' slots come with it
  iapply (Rounds.wp_wait_rest_token 𝒱₀ ER (sched m ρ) (c : Thread nD τ) none (κ := K (c, 0))
      (wpE_semWait_eq 𝒱₀ (c : Thread nD τ) none Set.univ) (Set.mem_univ _) () (O := O₃ c) (R := 0) (m := 0) (T := ∅)
      (by rw [expect_bar]; decide)) $$ [HcB HO HaB]
  · isplitr; · iexact HIbar
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  icases Hp with ⟨⟨⟨%fn0, Hn0⟩, #HRn0⟩, ⟨⟨%fn1, Hn1⟩, #HRn1⟩, ⟨%fn2, Hn2⟩, #HRn2⟩
  -- the row's full share cut in three
  ihave Ha' : aWhole c (accv m ρ c) $$ [Ha]
  · unfold aWhole; iexact Ha
  ihave Ha3 := (a_split c (accv m ρ c)).1 $$ Ha'
  icases Ha3 with ⟨Ha0, Ha1, Ha2⟩
  unfold O₃
  -- copy 0: this device's row, under share 0, into slot 0 of the device 1 place(s) on
  iapply (wp_send_slot m ρ c _ 0 (dev4_eq c) (κ₁ := K (c, 1)) (κ₂ := K (peer c 1, 4)) fn0 (tR c 2 + tR c 1 + tR c 0) (tR c 2 + tR c 1) rfl) $$ [Ha0 Hn0 HO HtS0 HtR0]
  · isplitr; · iexact HIs0
    isplitr; · iexact HIp0
    isplitl [Ha0]; · iexact Ha0
    isplitl [Hn0]; · iexact Hn0
    isplitl [HO]; · iexact HO
    isplitl [HtS0]; · iexact HtS0
    isplitr; · iexact HRs0
    isplitl [HtR0]; · iexact HtR0
    iexact HRn0
  iintro ⟨HcS0, HO⟩
  -- copy 1: this device's row, under share 1, into slot 1 of the device 2 place(s) on
  iapply (wp_send_slot m ρ c _ 1 (dev5_eq c) (κ₁ := K (c, 2)) (κ₂ := K (peer c 2, 5)) fn1 (tR c 2 + tR c 1) (tR c 2) rfl) $$ [Ha1 Hn1 HO HtS1 HtR1]
  · isplitr; · iexact HIs1
    isplitr; · iexact HIp1
    isplitl [Ha1]; · iexact Ha1
    isplitl [Hn1]; · iexact Hn1
    isplitl [HO]; · iexact HO
    isplitl [HtS1]; · iexact HtS1
    isplitr; · iexact HRs1
    isplitl [HtR1]; · iexact HtR1
    iexact HRn1
  iintro ⟨HcS1, HO⟩
  -- copy 2: this device's row, under share 2, into slot 2 of the device 3 place(s) on
  iapply (wp_send_slot m ρ c _ 2 (dev6_eq c) (κ₁ := K (c, 3)) (κ₂ := K (peer c 3, 6)) fn2 (tR c 2) (0) (zero_add _).symm) $$ [Ha2 Hn2 HO HtS2 HtR2]
  · isplitr; · iexact HIs2
    isplitr; · iexact HIp2
    isplitl [Ha2]; · iexact Ha2
    isplitl [Hn2]; · iexact Hn2
    isplitl [HO]; · iexact HO
    isplitl [HtS2]; · iexact HtS2
    isplitr; · iexact HRs2
    isplitl [HtR2]; · iexact HtR2
    iexact HRn2
  iintro ⟨HcS2, HO⟩
  -- the wait on send cell 0: share 0 of the row comes back
  iapply (Rounds.wp_wait_rest_token 𝒱₀ ER (sched m ρ) (c : Thread nD τ) none (κ := K (c, 1))
      (wpE_waitDma2_eq 𝒱₀ (c : Thread nD τ) none Set.univ) (Set.mem_univ _) () (O := 0) (R := 0) (m := 0) (T := ∅)
      (by rw [Nat.zero_add]; exact (expect_send m ρ c 0).symm)) $$ [HcS0 HO HaS0]
  · isplitr; · iexact HIs0
    isplitl [HcS0]; · iexact HcS0
    isplitl [HO]; · iexact HO
    isplitr; · rw [MayWait_zero]; iempintro
    iexact HaS0
  iintro ⟨HO, HaS0, -, Hpay⟩
  ihave Ha0 := (Entails.of_eq (rest_send m ρ c 0)) $$ Hpay
  -- the wait on receive cell 0: slot 0 comes back holding the row of the device 3 place(s) on
  iapply (Rounds.wp_wait_rest_token 𝒱₀ ER (sched m ρ) (c : Thread nD τ) none (κ := K (c, 4))
      (wpE_waitDma2_eq 𝒱₀ (c : Thread nD τ) none Set.univ) (Set.mem_univ _) () (O := 0) (R := 0) (m := 0) (T := ∅)
      (by rw [Nat.zero_add]; exact (slot_credit 0).trans (expect_recv m ρ c 0).symm)) $$ [HcV0 HO HaV0]
  · isplitr; · iexact HIv0
    isplitl [HcV0]; · iexact HcV0
    isplitl [HO]; · iexact HO
    isplitr; · rw [MayWait_zero]; iempintro
    iexact HaV0
  iintro ⟨HO, HaV0, -, Hpay⟩
  ihave Hv0' := (Entails.of_eq (rest_recv m ρ c 0)) $$ Hpay
  -- the wait on send cell 1: share 1 of the row comes back
  iapply (Rounds.wp_wait_rest_token 𝒱₀ ER (sched m ρ) (c : Thread nD τ) none (κ := K (c, 2))
      (wpE_waitDma2_eq 𝒱₀ (c : Thread nD τ) none Set.univ) (Set.mem_univ _) () (O := 0) (R := 0) (m := 0) (T := ∅)
      (by rw [Nat.zero_add]; exact (expect_send m ρ c 1).symm)) $$ [HcS1 HO HaS1]
  · isplitr; · iexact HIs1
    isplitl [HcS1]; · iexact HcS1
    isplitl [HO]; · iexact HO
    isplitr; · rw [MayWait_zero]; iempintro
    iexact HaS1
  iintro ⟨HO, HaS1, -, Hpay⟩
  ihave Ha1 := (Entails.of_eq (rest_send m ρ c 1)) $$ Hpay
  -- the wait on receive cell 1: slot 1 comes back holding the row of the device 2 place(s) on
  iapply (Rounds.wp_wait_rest_token 𝒱₀ ER (sched m ρ) (c : Thread nD τ) none (κ := K (c, 5))
      (wpE_waitDma2_eq 𝒱₀ (c : Thread nD τ) none Set.univ) (Set.mem_univ _) () (O := 0) (R := 0) (m := 0) (T := ∅)
      (by rw [Nat.zero_add]; exact (slot_credit 1).trans (expect_recv m ρ c 1).symm)) $$ [HcV1 HO HaV1]
  · isplitr; · iexact HIv1
    isplitl [HcV1]; · iexact HcV1
    isplitl [HO]; · iexact HO
    isplitr; · rw [MayWait_zero]; iempintro
    iexact HaV1
  iintro ⟨HO, HaV1, -, Hpay⟩
  ihave Hv1' := (Entails.of_eq (rest_recv m ρ c 1)) $$ Hpay
  -- the wait on send cell 2: share 2 of the row comes back
  iapply (Rounds.wp_wait_rest_token 𝒱₀ ER (sched m ρ) (c : Thread nD τ) none (κ := K (c, 3))
      (wpE_waitDma2_eq 𝒱₀ (c : Thread nD τ) none Set.univ) (Set.mem_univ _) () (O := 0) (R := 0) (m := 0) (T := ∅)
      (by rw [Nat.zero_add]; exact (expect_send m ρ c 2).symm)) $$ [HcS2 HO HaS2]
  · isplitr; · iexact HIs2
    isplitl [HcS2]; · iexact HcS2
    isplitl [HO]; · iexact HO
    isplitr; · rw [MayWait_zero]; iempintro
    iexact HaS2
  iintro ⟨HO, HaS2, -, Hpay⟩
  ihave Ha2 := (Entails.of_eq (rest_send m ρ c 2)) $$ Hpay
  -- the wait on receive cell 2: slot 2 comes back holding the row of the device 1 place(s) on
  iapply (Rounds.wp_wait_rest_token 𝒱₀ ER (sched m ρ) (c : Thread nD τ) none (κ := K (c, 6))
      (wpE_waitDma2_eq 𝒱₀ (c : Thread nD τ) none Set.univ) (Set.mem_univ _) () (O := 0) (R := 0) (m := 0) (T := ∅)
      (by rw [Nat.zero_add]; exact (slot_credit 2).trans (expect_recv m ρ c 2).symm)) $$ [HcV2 HO HaV2]
  · isplitr; · iexact HIv2
    isplitl [HcV2]; · iexact HcV2
    isplitl [HO]; · iexact HO
    isplitr; · rw [MayWait_zero]; iempintro
    iexact HaV2
  iintro ⟨HO, HaV2, -, Hpay⟩
  ihave Hv2' := (Entails.of_eq (rest_recv m ρ c 2)) $$ Hpay
  unfold recvPay sendPay
  icases Hv0' with ⟨%fd0, Hv0⟩
  icases Hv1' with ⟨%fd1, Hv1⟩
  icases Hv2' with ⟨%fd2, Hv2⟩
  -- the six own cells close: their counters at zero are the core's again
  imod (Rounds.cell_close ER (sched m ρ) (Set.mem_univ (K (c, 1))) (fun h => h) (R := 0 + 1) (duties_later m ρ (sendCell c 0))) $$ [HaS0] with Hz1
  · isplitr; · iexact HIs0
    iexact HaS0
  imod (Rounds.cell_close ER (sched m ρ) (Set.mem_univ (K (c, 2))) (fun h => h) (R := 0 + 1) (duties_later m ρ (sendCell c 1))) $$ [HaS1] with Hz2
  · isplitr; · iexact HIs1
    iexact HaS1
  imod (Rounds.cell_close ER (sched m ρ) (Set.mem_univ (K (c, 3))) (fun h => h) (R := 0 + 1) (duties_later m ρ (sendCell c 2))) $$ [HaS2] with Hz3
  · isplitr; · iexact HIs2
    iexact HaS2
  imod (Rounds.cell_close ER (sched m ρ) (Set.mem_univ (K (c, 4))) (fun h => h) (R := 0 + 1) (duties_later m ρ (recvCell c 0))) $$ [HaV0] with Hz4
  · isplitr; · iexact HIv0
    iexact HaV0
  imod (Rounds.cell_close ER (sched m ρ) (Set.mem_univ (K (c, 5))) (fun h => h) (R := 0 + 1) (duties_later m ρ (recvCell c 1))) $$ [HaV1] with Hz5
  · isplitr; · iexact HIv1
    iexact HaV1
  imod (Rounds.cell_close ER (sched m ρ) (Set.mem_univ (K (c, 6))) (fun h => h) (R := 0 + 1) (duties_later m ρ (recvCell c 2))) $$ [HaV2] with Hz6
  · isplitr; · iexact HIv2
    iexact HaV2
  -- the three shares of the row joined
  ihave Ha := (a_split c (accv m ρ c)).2 $$ [Ha0 Ha1 Ha2]
  · isplitl [Ha0]; · iexact Ha0
    isplitl [Ha1] <;> iassumption
  unfold aWhole slotPts
  -- the loads and the store
  iapply (wp_load 𝒱₀ (c : Thread nD τ) none Set.univ (m := aM) (Finset.subset_univ _)) $$ Ha; iintro Ha
  rw [read_a]
  iapply (wp_load 𝒱₀ (c : Thread nD τ) none Set.univ (m := qM) load_slot_sub0) $$ Hv0; iintro Hv0
  iapply (wp_load 𝒱₀ (c : Thread nD τ) none Set.univ (m := qM) load_slot_sub1) $$ Hv1; iintro Hv1
  iapply (wp_load 𝒱₀ (c : Thread nD τ) none Set.univ (m := qM) load_slot_sub2) $$ Hv2; iintro Hv2
  iapply (wp_load 𝒱₀ (c : Thread nD τ) none Set.univ (m := oM) (Finset.subset_univ _)) $$ Hout; iintro Hout
  rw [pay2_eq, View.read_write_univ, View.read_write_univ, View.read_write_univ]
  iapply (wp_store 𝒱₀ (c : Thread nD τ) none Set.univ (m := oM) (r := rA) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl, sep_six]
  isplitl [Ha Hv0 Hv1 Hv2 Hz1 Hz2 Hz3 Hz4 Hz5 Hz6]
  · isplitl [Ha]; · iexists _; unfold aWhole; iexact Ha
    isplitl [Hv0 Hv1 Hv2]
    · iapply (q_join c _ _ _)
      unfold slotPts
      isplitl [Hv0]; · iexact Hv0
      isplitl [Hv1] <;> iassumption
    · isplitl [Hz1]; · iexact Hz1
      isplitl [Hz2]; · iexact Hz2
      isplitl [Hz3]; · iexact Hz3
      isplitl [Hz4]; · iexact Hz4
      isplitl [Hz5] <;> iassumption
  isplitl [HO]
  · iexists (insert (SemLoc.dma (recvS 2), ()) (insert (SemLoc.dma (sendS 2), ()) (insert (SemLoc.dma (recvS 1), ()) (insert (SemLoc.dma (sendS 1), ())
      (insert (SemLoc.dma (recvS 0), ()) (insert (SemLoc.dma (sendS 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device c: the one grid point, from what the pipeline hands the body to what it wants back. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hrest⟩, Ha, Hq⟩, Ho, Hx, Hout⟩
  iapply (sound_body m ρ K c fun _ => bodyPost m ρ c)
  unfold bodyPre
  isplitr []
  · isplitl [Hg Hrest Ha Hq]
    · isplitl [Hg]; · iexact Hg
      icases Hrest with ⟨H1, H2, H3⟩
      isplitl [H1]; · iexact H1
      isplitl [H2]; · iexact H2
      isplitl [H3]; · iexact H3
      isplitl [Ha] <;> iassumption
    isplitl [Ho]; · iexact Ho
    isplitl [Hx] <;> iassumption
  · iintro H; iexact H

/-- info: 'Cert.Kernel.AllSum.body_obligation' depends on axioms: [propext, Classical.choice, Quot.sound] -/
#guard_msgs in #print axioms Cert.Kernel.AllSum.body_obligation

end Body

end Cert.Kernel.AllSum

end
-- ==== Proof.Kernel.Launch.lean ====
/-
  The launch of the four devices' bodies, and what the arrays hold after the run.

  Every device's body is proved from its own start: the ghost state of its seven cells, the credit of the four waits
  that other devices pay (three units on its entry cell, a row's credit on each receive cell), and its two scratch
  buffers. The launch makes that start for all four devices at once: the entry semaphore is shared by all four devices
  and not scoped to the launch, so the seven cells of every device are allocated in one global step over every device's
  own and unscoped semaphores; the tokens of each cell's duties are then dealt to the devices that pay them — an entry
  cell's duty d to the device d + 1 places on, receive cell k's to the device 3 - k places on, a send cell's to its own
  device —; what each device owes at launch is exactly what the others' waits were given as credit. From the bodies the
  library's launch theorem gives the run: every fair interleaving of the four devices terminates, and each window's
  array ends at the proof data's last contents: the argument unchanged, the result at the sum of the four rows.
-/
import proofs.«901072_g7700000000001073_dist_sum_ax0_shard0_i_m1024_n512_v7x_i4_f32_1_alg».proof.Proof.Kernel.Protocol
import proofs.«901072_g7700000000001073_dist_sum_ax0_shard0_i_m1024_n512_v7x_i4_f32_1_alg».proof.Proof.Gen.Kernel.Points

noncomputable section

namespace Cert.Kernel.AllSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch: the cells, the tokens, the launch element -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 7 → SemLoc sig) := by
  intro k k' h
  fin_cases k <;> fin_cases k' <;> first | rfl | exact absurd h (by decide)

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

/-- The seven cells of every device. -/
def allCells : Finset (GSem nD τ sig) := Finset.univ.map ⟨kcell, kcell_injective⟩

/-- The nine duties of a device's own cells: which cell, which duty. The entry cell's three, then one for each send cell
    and each receive cell. -/
abbrev tokCell : Fin 9 → Fin 7 := fun | 0 => 0 | 1 => 0 | 2 => 0 | 3 => 1 | 4 => 2 | 5 => 3 | 6 => 4 | 7 => 5 | 8 => 6
abbrev tokDuty : Fin 9 → Fin 3 := fun | 0 => 0 | 1 => 1 | 2 => 2 | 3 => 0 | 4 => 0 | 5 => 0 | 6 => 0 | 7 => 0 | 8 => 0
theorem tokIx_inj : ∀ j j' : Fin 9, tokCell j = tokCell j' → tokDuty j = tokDuty j' → j = j' := by decide

abbrev tokOf (cj : Dev nD × Fin 9) : GSem nD τ sig × ℕ × Fin 3 := (kcell (cj.1, tokCell cj.2), 0, tokDuty cj.2)
theorem tokOf_injective : Function.Injective (tokOf : Dev nD × Fin 9 → GSem nD τ sig × ℕ × Fin 3) := by
  rintro ⟨c, j⟩ ⟨c', j'⟩ h
  have h1 : ((c, tokCell j) : Dev nD × Fin 7) = (c', tokCell j') := kcell_injective (congrArg (fun x : GSem nD τ sig × ℕ × Fin 3 => x.1) h)
  have h2 : tokDuty j = tokDuty j' := congrArg (fun x : GSem nD τ sig × ℕ × Fin 3 => x.2.2) h
  have h3 : c = c' := congrArg Prod.fst h1
  have h4 : j = j' := tokIx_inj j j' (congrArg Prod.snd h1) h2
  subst h3; subst h4; rfl

/-- The duty tokens of every device's own cells. -/
def allToks : Finset (GSem nD τ sig × ℕ × Fin 3) := Finset.univ.map ⟨tokOf, tokOf_injective⟩

/-- The launch element: the pipeline's staging cells in the first component, the protocol's cells and tokens in the second. -/
def u₀ : UU :=
  (initOf (Pipeline.cells cfgs cellOf_inj) (Pipeline.launchToks cfgs cellOf_inj), initOf allCells allToks)

/-- The duty tokens of device c's own cells, as minted. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device c: the round states of its seven cells, its positions with the rounds reached,
    the tokens of its own cells' duties. -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The protocol's component of the launch element pays for every device's share. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin9]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt round the mesh -/

/-- The three send and three receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
/-- the entry semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨HS0, HS1, HS2, HR0, HR1, HR2⟩, HB⟩
  isplitl [HB]; · iexact HB
  isplitl [HS0]; · iexact HS0
  isplitl [HS1]; · iexact HS1
  isplitl [HS2]; · iexact HS2
  isplitl [HR0]; · iexact HR0
  isplitl [HR1]; · iexact HR1
  iexact HR2

/-- One device's seven cells: each counter at zero with its round state at zero becomes the cell's invariant, at some name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 7 → ℕ) (c : Dev nD) : iprop(records m ρ K ∗ linear c) ⊢ G' m ρ c := by
  unfold G' ghost
  iintro H
  iexists K
  iexact H

/-- The tokens dealt round the mesh. Duty d of an entry cell goes to the device d + 1 places on from the cell's, that
    is: a device holds duty 2 of the cell one place on, duty 1 of the cell two places on, duty 0 of the cell three places
    on. The duty of receive cell k goes to the device 3 - k places on from the cell's: a device holds that of receive cell
    k of the device k + 1 places on. A send cell's duty stays. -/
theorem toks_around : (bigSep Finset.univ fun c : Dev nD => (toks c : sProp 𝕄)) ⊢ bigSep Finset.univ fun c : Dev nD => payToks c := by
  unfold toks payToks
  simp only [bigSep_sep']
  rw [bigSep_univ_equiv (turn 1 (by decide)) (fun c : Dev nD => (dutyTok ER (barCell c) 0 2 : sProp 𝕄)),
    bigSep_univ_equiv (turn 2 (by decide)) (fun c : Dev nD => (dutyTok ER (barCell c) 0 1 : sProp 𝕄)),
    bigSep_univ_equiv (turn 3 (by decide)) (fun c : Dev nD => (dutyTok ER (barCell c) 0 0 : sProp 𝕄)),
    bigSep_univ_equiv (turn 1 (by decide)) (fun c : Dev nD => (dutyTok ER (recvCell c 0) 0 0 : sProp 𝕄)),
    bigSep_univ_equiv (turn 2 (by decide)) (fun c : Dev nD => (dutyTok ER (recvCell c 1) 0 0 : sProp 𝕄)),
    bigSep_univ_equiv (turn 3 (by decide)) (fun c : Dev nD => (dutyTok ER (recvCell c 2) 0 0 : sProp 𝕄))]
  iintro ⟨HB0, HB1, HB2, HS0, HS1, HS2, HR0, HR1, HR2⟩
  isplitl [HB0 HB1 HB2]
  · isplitl [HB2]; · iexact HB2
    isplitl [HB1]; · iexact HB1
    iexact HB0
  isplitl [HR0 HR1 HR2]
  · isplitl [HR0]; · iexact HR0
    isplitl [HR1]; · iexact HR1
    iexact HR2
  isplitl [HS0]; · iexact HS0
  isplitl [HS1]; · iexact HS1
  iexact HS2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device's allocated cells and tokens, regrouped: the invariants and reached-marks of all twenty-eight cells are
    persistent and go to every device; the positions stay; the tokens go to their payers. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit: what the others owe a device's cells is what its waits were given -/

/-- Every device owing one unit to the entry cell of the device k places on, a device's entry cell is credited a unit. -/
theorem cred_bar (c : Dev nD) (k : ℕ) (hk : k ≤ 4) :
    (Pipeline.launchCred (fun d => tB d k) c : sProp 𝕄) ⊢ cred (tallyAt (barCell c) () 1) :=
  Pipeline.launchCred_tallyAt (.reg barS) (fun d => peer d k) (fun d => peer d (4 - k)) (turn k hk).right_inv (turn k hk).left_inv () 1 c

/-- Every device owing a row's credit to receive cell k of the device k + 1 places on, a device's receive cell k is credited a row. -/
theorem cred_recv (c : Dev nD) (k : Fin 3) :
    (Pipeline.launchCred (fun d => tR d k) c : sProp 𝕄) ⊢ cred (tallyAt (recvCell c k) () N) :=
  Pipeline.launchCred_tallyAt (.dma (recvS k)) (fun d => peer d (k.val + 1)) (fun d => peer d (4 - (k.val + 1)))
    (turn (k.val + 1) (by have := k.isLt; omega)).right_inv (turn (k.val + 1) (by have := k.isLt; omega)).left_inv () N c

theorem creds (c : Dev nD) :
    (Pipeline.launchCred O₀ c : sProp 𝕄)
      ⊢ iprop(cred (tallyAt (barCell c) () 3)
          ∗ (cred (tallyAt (recvCell c 0) () N) ∗ cred (tallyAt (recvCell c 1) () N) ∗ cred (tallyAt (recvCell c 2) () N))) := by
  show (Pipeline.launchCred (fun d => tR d 2 + tR d 1 + tR d 0 + tB d 3 + tB d 2 + tB d 1) c : sProp 𝕄) ⊢ _
  rw [Pipeline.launchCred_add, Pipeline.launchCred_add, Pipeline.launchCred_add, Pipeline.launchCred_add, Pipeline.launchCred_add]
  iintro ⟨⟨⟨⟨⟨HR2, HR1⟩, HR0⟩, HB3⟩, HB2⟩, HB1⟩
  ihave H1 := (cred_bar (F := F) c 1 (by decide)) $$ HB1
  ihave H2 := (cred_bar (F := F) c 2 (by decide)) $$ HB2
  ihave H3 := (cred_bar (F := F) c 3 (by decide)) $$ HB3
  ihave G0 := (cred_recv (F := F) c 0) $$ HR0
  ihave G1 := (cred_recv (F := F) c 1) $$ HR1
  ihave G2 := (cred_recv (F := F) c 2) $$ HR2
  isplitl [H1 H2 H3]
  · rw [← tallyAt_add (barCell c) () 2 1, ← tallyAt_add (barCell c) () 1 1]
    iapply (cred_add _ _).2
    isplitl [H1 H2]
    · iapply (cred_add _ _).2
      isplitl [H1] <;> iassumption
    iexact H3
  isplitl [G0]; · iexact G0
  isplitl [G1] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H3, HN0, HN1, HN2⟩
  imodintro
  unfold start G'
  isplitl
  · isplitl [HG]; · iexact HG
    isplitl [H3]; · iexact H3
    isplitl [HN0 HN1 HN2]
    · isplitl [HN0]; · iexact HN0
      isplitl [HN1] <;> iassumption
    iexact Hlev
  · iempintro

/-- At the point's start the two scratch buffers arrive whole at some contents. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ aWhole qPts
  iintro ⟨Hs, -, Ha, Hq⟩
  isplitl [Hs]; · iexact Hs
  isplitl [Ha] <;> iassumption

/-- At its end they go back whole, with the six own semaphores at zero. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ aWhole qPts Pipeline.ownSems0
  iintro ⟨Ha, Hq, Hz⟩
  isplitr; · iempintro
  isplitl [Hz]; · iexact Hz
  isplitl [Ha] <;> iassumption

/-- The pipeline's own waits are on the two staging semaphores: no receive semaphore, so below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> intro k <;> fin_cases k <;> decide) _ (by
      rcases t with ⟨_ | _, ht⟩
      · exact Or.inl rfl
      · exact Or.inr rfl)

/-! ## The final arrays -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From the four bodies, the run: every weakly fair execution of @main on the four devices terminates, and every final
    state has each window's array at the proof data's last contents. -/
theorem run_main_of (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the sum of the four devices' rows. -/
theorem finalA_out (c : Dev nD) : finalA m ρ c (1 : Fin 2) = outAt m ρ c := by
  have h := (dats (F := F) m ρ 0 c).arrAt_succ (1 : Fin 2) t₀
  rw [flush0_1 t₀, if_pos rfl] at h
  show (dats m ρ 0 c).arrAt (1 : Fin 2) (t₀.val + 1) = _
  rw [h]
  exact Memref.write_access_unit_zero_univ (Elt F) main_v1 (funext fun a => Nat.zero_mul _) _ _ _

/-- info: 'Cert.Kernel.AllSum.run_main_of' depends on axioms: [propext, Classical.choice, Quot.sound] -/
#guard_msgs in #print axioms run_main_of
/-- info: 'Cert.Kernel.AllSum.finalA_x' depends on axioms: [propext, Classical.choice, Quot.sound] -/
#guard_msgs in #print axioms finalA_x
/-- info: 'Cert.Kernel.AllSum.finalA_out' depends on axioms: [propext, Classical.choice, Quot.sound] -/
#guard_msgs in #print axioms finalA_out

end Cert.Kernel.AllSum

end
-- ==== Proof.Kernel.Run.lean ====
/-
  The run of the four devices, with everything a claim needs of it: every weakly fair interleaving of the four
  devices' threads terminates without a fault; on every device the result array ends holding the device's own row
  plus the rows of the devices 3, 2 and 1 places on — each of the four rows once —, and the argument array ends
  unchanged.
-/
import proofs.«901072_g7700000000001073_dist_sum_ax0_shard0_i_m1024_n512_v7x_i4_f32_1_alg».proof.Proof.Kernel.Body
import proofs.«901072_g7700000000001073_dist_sum_ax0_shard0_i_m1024_n512_v7x_i4_f32_1_alg».proof.Proof.Kernel.Launch

noncomputable section

namespace Cert.Kernel.AllSum

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem run : θ_run (defs (F := F)) (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩)
    (run_main_of m ρ (body_obligation m ρ))

/-- info: 'Cert.Kernel.AllSum.run' depends on axioms: [propext, Classical.choice, Quot.sound] -/
#guard_msgs in #print axioms Cert.Kernel.AllSum.run

end Cert.Kernel.AllSum

end
-- ==== Proof.KernelIdeal.Protocol.lean ====
/-
  The cross-device protocol of the four-device column sum, and what every buffer holds at each stage.

  Device c holds block c (1024 rows) of a 4096 x 512 array. It adds up the rows of its block into a 1 x 512 row
  acc(c), kept in its first scratch buffer, and every device sends its row to each of the three others: the copy at
  offset k + 1 (k = 0, 1, 2) goes from device c into slot k of the second scratch buffer of device c + k + 1 (mod 4), so
  slot k of device c ends holding acc(c - (k + 1)), that is acc(c + 3 - k). The result on every device is
  acc(c) + slot 0 + slot 1 + slot 2: each of the four rows once.

  Before its first copy a device signals the shared entry semaphore of each of the three others once and waits for three
  units on its own: so every peer is inside the kernel, its slots its own to give away. The signal device c sends at
  offset off carries slot 3 - off of c's second scratch buffer to device c + off, which is exactly the slot that device
  later writes (it reaches c at offset 4 - off, slot 3 - off). Each copy has its own pair of semaphores: send k on the
  issuer gives back the share of acc(c) the copy read, receive k on the target hands the target its slot k, filled.

  One round per cell. The entry cell of device c has three duties of one unit: duty d is paid by device c + d + 1 and
  hands over that device's slot d, any contents, with the fact that the device stands at round 0 of its receive cell d.
  A send or receive cell has the one duty 0 of a row's credit.
-/
import proofs.«901072_g7700000000001073_dist_sum_ax0_shard0_i_m1024_n512_v7x_i4_f32_1_alg».proof.Proof.Gen.KernelIdeal
import proofs.«901072_g7700000000001073_dist_sum_ax0_shard0_i_m1024_n512_v7x_i4_f32_1_alg».proof.Proof.Gen.KernelIdeal.Skeleton
import proofs.«901072_g7700000000001073_dist_sum_ax0_shard0_i_m1024_n512_v7x_i4_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.AllSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy, and the protocol's with duties named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh: the device k places further round -/

def peer (c : Dev nD) (k : ℕ) : Dev nD := ⟨(c.val + k) % 4, Nat.mod_lt _ (by decide)⟩

theorem peer_peer (c : Dev nD) (a b : ℕ) : peer (peer c a) b = peer c (a + b) :=
  Fin.ext (by show ((c.val + a) % 4 + b) % 4 = (c.val + (a + b)) % 4; omega)
theorem peer_four (c : Dev nD) : peer c 4 = c :=
  Fin.ext (by show (c.val + 4) % 4 = c.val; have : c.val < 4 := c.isLt; omega)
theorem peer_inj (k : ℕ) {a b : Dev nD} (h : peer a k = peer b k) : a = b := by
  have h' : (a.val + k) % 4 = (b.val + k) % 4 := congrArg Fin.val h
  have ha : a.val < 4 := a.isLt
  have hb : b.val < 4 := b.isLt
  exact Fin.ext (by omega)

/-- The device chains the body computes, in closed form: the three signals name the devices 1, 2, 3 places on, and so do
    the three copies. -/
theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 1 := by revert c; decide +kernel
theorem dev5_eq (c : Dev nD) : (⟨k0_dev5 c, k0_dev5_lt c⟩ : Dev nD) = peer c 2 := by revert c; decide +kernel
theorem dev6_eq (c : Dev nD) : (⟨k0_dev6 c, k0_dev6_lt c⟩ : Dev nD) = peer c 3 := by revert c; decide +kernel

/-- Going k places on is a bijection of the mesh, going 4 - k places on its inverse. -/
def turn (k : ℕ) (hk : k ≤ 4) : Dev nD ≃ Dev nD :=
  ⟨fun c => peer c k, fun c => peer c (4 - k),
    fun c => by show peer (peer c k) (4 - k) = c; rw [peer_peer, show k + (4 - k) = 4 by omega, peer_four],
    fun c => by show peer (peer c (4 - k)) k = c; rw [peer_peer, show 4 - k + k = 4 by omega, peer_four]⟩

/-! ## The memrefs, the slots, the cells -/

abbrev xM : Memref sig .tc .vmem S1024x512 .f32 := Memref.whole cc0_stg0_0
abbrev oM : Memref sig .tc .vmem S1x512 .f32 := Memref.whole cc0_stg1_0
abbrev aM : Memref sig .tc .vmem S1x512 .f32 := Memref.whole cc0_scratch0
abbrev qM : Memref sig .tc .vmem S3x1x512 .f32 := Memref.whole cc0_scratch1

/-- Row k of the second scratch buffer, as a rectangle of it; -/
abbrev rowR : Fin 3 → Rect S3x1x512 := fun
  | 0 => Rect.unit (s := S3x1x512) ![0, 0, 0] S1x1x512.size inb_S3x1x512_S1x1x512_0_0_0
  | 1 => Rect.unit (s := S3x1x512) ![1, 0, 0] S1x1x512.size inb_S3x1x512_S1x1x512_1_0_0
  | 2 => Rect.unit (s := S3x1x512) ![2, 0, 0] S1x1x512.size inb_S3x1x512_S1x1x512_2_0_0
/-- and as the 1 x 512 memref a copy lands in. -/
abbrev slotM : Fin 3 → Memref sig .tc .vmem S1x512 .f32 := fun
  | 0 => (qM.slice (Rect.unit (s := S3x1x512) ![0, 0, 0] S1x1x512.size inb_S3x1x512_S1x1x512_0_0_0) (fun _ => rfl)).squeeze S1x512 squeezes_S1x1x512_S1x512
  | 1 => (qM.slice (Rect.unit (s := S3x1x512) ![1, 0, 0] S1x1x512.size inb_S3x1x512_S1x1x512_1_0_0) (fun _ => rfl)).squeeze S1x512 squeezes_S1x1x512_S1x512
  | 2 => (qM.slice (Rect.unit (s := S3x1x512) ![2, 0, 0] S1x1x512.size inb_S3x1x512_S1x1x512_2_0_0) (fun _ => rfl)).squeeze S1x512 squeezes_S1x1x512_S1x512

/-- The shared entry semaphore; the three send and the three receive semaphores. -/
abbrev barS : Sem sig := (SemArray.scalar (sig.barrier 0 rfl) : Sems sig S_).sem
abbrev sendS : Fin 3 → DmaSem sig := fun
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem
abbrev recvS : Fin 3 → DmaSem sig := fun
  | 0 => ((cc0_scratch3.slice (Rect.unit (s := S3) ![0] S1.size inb_S3_S1_0)).squeeze S_ squeezes_S1_S_).sem
  | 1 => ((cc0_scratch3.slice (Rect.unit (s := S3) ![1] S1.size inb_S3_S1_1)).squeeze S_ squeezes_S1_S_).sem
  | 2 => ((cc0_scratch3.slice (Rect.unit (s := S3) ![2] S1.size inb_S3_S1_2)).squeeze S_ squeezes_S1_S_).sem

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The kernel's own (scoped) semaphores as the launch indexes them: send 0-2, receive 0-2; -/
abbrev osem : Fin 6 → SemLoc sig := fun
  | 0 => .dma (sendS 0) | 1 => .dma (sendS 1) | 2 => .dma (sendS 2) | 3 => .dma (recvS 0) | 4 => .dma (recvS 1) | 5 => .dma (recvS 2)
/-- all seven of the protocol's: the entry semaphore first. -/
abbrev csem : Fin 7 → SemLoc sig := fun
  | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)

theorem sendS_val (k : Fin 3) : (sendS k).val = 2 + k.val := by fin_cases k <;> rfl
theorem recvS_val (k : Fin 3) : (recvS k).val = 5 + k.val := by fin_cases k <;> rfl

theorem send_ne_bar (k : Fin 3) : (SemLoc.dma (sendS k) : SemLoc sig) ≠ .reg barS := fun h => by cases h
theorem recv_ne_bar (k : Fin 3) : (SemLoc.dma (recvS k) : SemLoc sig) ≠ .reg barS := fun h => by cases h
theorem send_ne_recv (j k : Fin 3) : (SemLoc.dma (sendS j) : SemLoc sig) ≠ .dma (recvS k) := fun h => by
  have := congrArg Fin.val (SemLoc.dma.inj h); rw [sendS_val, recvS_val] at this; have := j.isLt; omega
theorem recv_ne_send (j k : Fin 3) : (SemLoc.dma (recvS j) : SemLoc sig) ≠ .dma (sendS k) := fun h => send_ne_recv k j h.symm
theorem sendS_inj {j k : Fin 3} (h : (SemLoc.dma (sendS j) : SemLoc sig) = .dma (sendS k)) : j = k := by
  have := congrArg Fin.val (SemLoc.dma.inj h); rw [sendS_val, sendS_val] at this; exact Fin.ext (by omega)
theorem recvS_inj {j k : Fin 3} (h : (SemLoc.dma (recvS j) : SemLoc sig) = .dma (recvS k)) : j = k := by
  have := congrArg Fin.val (SemLoc.dma.inj h); rw [recvS_val, recvS_val] at this; exact Fin.ext (by omega)

/-- The credit of one 1 x 512 row. -/
abbrev N : ℕ := (aM : Memref sig .tc .vmem S1x512 .f32).view.dmaCredit
theorem N_pos : 0 < N := View.dmaCredit_pos _ (by decide)

/-! ## Contents -/

/-- Device c's block of the argument, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- The column sums of device c's block: what its first scratch buffer holds from the store on. -/
def accv (c : Dev nD) : (cc0_scratch0 : Ref sig .tc).ty.Contents (Elt F) := k0_pay1 (xstg m ρ c)

/-- The result on device c: its own row and the rows that landed in its slots 0, 1, 2, from the devices 3, 2, 1 places on. -/
def outAt (c : Dev nD) : (cc0_stg1_0 : Ref sig .tc).ty.Contents (Elt F) :=
  addf (addf (addf (accv m ρ c) (accv m ρ (peer c 3))) (accv m ρ (peer c 2))) (accv m ρ (peer c 1))

/-- The three shares under which the three copies read the first scratch buffer at once. -/
def shr : Fin 3 → PosShare TreeShare := fun
  | 0 => fullShare.left | 1 => fullShare.right.left | 2 => fullShare.right.right

def xPts (c : Dev nD) : sProp 𝕄 :=
  (xM : Memref sig .tc .vmem S1024x512 .f32).view.loc (c : Thread nD τ) ↦[(xM : Memref sig .tc .vmem S1024x512 .f32).view.set]{fullShare} xstg m ρ c
def aPts (c : Dev nD) (q : PosShare TreeShare) (f : Buf (Elt F) ((aM : Memref sig .tc .vmem S1x512 .f32).view.loc (c : Thread nD τ))) : sProp 𝕄 :=
  (aM : Memref sig .tc .vmem S1x512 .f32).view.loc (c : Thread nD τ) ↦[(aM : Memref sig .tc .vmem S1x512 .f32).view.set]{q} f
def slotPts (c : Dev nD) (k : Fin 3) (f : Buf (Elt F) ((slotM k).view.loc (c : Thread nD τ))) : sProp 𝕄 :=
  (slotM k).view.loc (c : Thread nD τ) ↦[(slotM k).view.set]{fullShare} f

instance xPts_storable (c : Dev nD) : BI.Storable (upEmb : UEmb _ 𝕄) (xPts (F := F) m ρ c) := by unfold xPts; infer_instance
instance aPts_storable (c : Dev nD) (q) (f) : BI.Storable (upEmb : UEmb _ 𝕄) (aPts (F := F) c q f) := by unfold aPts; infer_instance
instance slotPts_storable (c : Dev nD) (k) (f) : BI.Storable (upEmb : UEmb _ 𝕄) (slotPts (F := F) c k f) := by unfold slotPts; infer_instance

/-! ## The schedule -/

/-- Duty d of device c's entry cell, paid by the device d + 1 places on: that device's slot d, and that it stands at round
    0 of its receive cell d — what c's copy into that slot needs. -/
def barPay (c : Dev nD) (d : Fin 3) : sProp 𝕄 :=
  iprop((∃ f, slotPts (peer c (d.val + 1)) d f) ∗ reached ER (recvCell (peer c (d.val + 1)) d) 0)
/-- Receive cell k hands device c its slot k holding the row of the device 3 - k places on, over whatever it held. -/
def recvPay (c : Dev nD) (k : Fin 3) : sProp 𝕄 :=
  iprop(∃ fd, slotPts c k ((slotM k).view.write (Elt F) fd (accv m ρ (peer c (3 - k.val))) Finset.univ))
/-- Send cell k gives back the share of the first scratch buffer copy k read. -/
def sendPay (c : Dev nD) (k : Fin 3) : sProp 𝕄 := aPts c (shr k) (accv m ρ c)

abbrev IsBar (g : GSem nD τ sig) : Prop := g.1.2 = .tc ∧ g.2 = .reg barS
abbrev IsXfer (g : GSem nD τ sig) : Prop := g.1.2 = .tc ∧ ∃ k : Fin 3, g.2 = .dma (sendS k) ∨ g.2 = .dma (recvS k)

def sched : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (recvS 0) then recvPay m ρ g.1.1 0
    else if g.2 = .dma (recvS 1) then recvPay m ρ g.1.1 1
    else if g.2 = .dma (recvS 2) then recvPay m ρ g.1.1 2
    else if g.2 = .dma (sendS 0) then sendPay m ρ g.1.1 0
    else if g.2 = .dma (sendS 1) then sendPay m ρ g.1.1 1
    else if g.2 = .dma (sendS 2) then sendPay m ρ g.1.1 2
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  show BI.Storable upEmb (if g.2 = .reg barS then barPay g.1.1 d
    else if g.2 = .dma (recvS 0) then recvPay m ρ g.1.1 0
    else if g.2 = .dma (recvS 1) then recvPay m ρ g.1.1 1
    else if g.2 = .dma (recvS 2) then recvPay m ρ g.1.1 2
    else if g.2 = .dma (sendS 0) then sendPay m ρ g.1.1 0
    else if g.2 = .dma (sendS 1) then sendPay m ρ g.1.1 1
    else if g.2 = .dma (sendS 2) then sendPay m ρ g.1.1 2
    else iprop(emp))
  unfold barPay recvPay sendPay slotPts aPts
  (repeat' split) <;> infer_instance

/-! ## The schedule's tables, cell by cell -/

section Tables
variable (c : Dev nD)

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem not_bar_send (k : Fin 3) : ¬ IsBar (sendCell c k) := fun h => send_ne_bar k h.2
theorem not_bar_recv (k : Fin 3) : ¬ IsBar (recvCell c k) := fun h => recv_ne_bar k h.2

theorem duties_bar : (sched (F := F) m ρ).duties (barCell c) 0 = Finset.univ := by dsimp only [sched]; exact if_pos ⟨rfl, rfl, rfl⟩
theorem duties_send (k : Fin 3) : (sched (F := F) m ρ).duties (sendCell c k) 0 = {0} := by
  dsimp only [sched]; rw [if_neg (fun h => not_bar_send c k h.2)]; exact if_pos ⟨rfl, rfl, k, .inl rfl⟩
theorem duties_recv (k : Fin 3) : (sched (F := F) m ρ).duties (recvCell c k) 0 = {0} := by
  dsimp only [sched]; rw [if_neg (fun h => not_bar_recv c k h.2)]; exact if_pos ⟨rfl, rfl, k, .inr rfl⟩
theorem duties_later (g : GSem nD τ sig) : ∀ r, 1 ≤ r → (sched (F := F) m ρ).duties g r = ∅ :=
  fun r hr => by dsimp only [sched]; rw [if_neg fun h => by omega, if_neg fun h => by omega]

theorem amount_bar (d : Fin 3) : (sched (F := F) m ρ).amount (barCell c) 0 d = 1 := by dsimp only [sched]; exact if_pos rfl
theorem amount_send (k d : Fin 3) : (sched (F := F) m ρ).amount (sendCell c k) 0 d = N := by dsimp only [sched]; exact if_neg (send_ne_bar k)
theorem amount_recv (k d : Fin 3) : (sched (F := F) m ρ).amount (recvCell c k) 0 d = N := by dsimp only [sched]; exact if_neg (recv_ne_bar k)

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (k : Fin 3) : (sched (F := F) m ρ).expect (sendCell c k) 0 = N := by
  unfold Schedule.expect Schedule.amountOf; rw [duties_send, Finset.sum_singleton, amount_send]
theorem expect_recv (k : Fin 3) : (sched (F := F) m ρ).expect (recvCell c k) 0 = N := by
  unfold Schedule.expect Schedule.amountOf; rw [duties_recv, Finset.sum_singleton, amount_recv]

theorem payload_bar (d : Fin 3) : (sched (F := F) m ρ).payload (barCell c) 0 d = barPay c d := by dsimp only [sched]; rw [if_pos rfl]
theorem payload_recv (k d : Fin 3) : (sched (F := F) m ρ).payload (recvCell c k) 0 d = recvPay m ρ c k := by
  dsimp only [sched]; rw [if_neg (recv_ne_bar k)]
  fin_cases k
  · rw [if_pos rfl]; rfl
  · rw [if_neg (fun h => absurd (recvS_inj h) (by decide)), if_pos rfl]; rfl
  · rw [if_neg (fun h => absurd (recvS_inj h) (by decide)), if_neg (fun h => absurd (recvS_inj h) (by decide)), if_pos rfl]; rfl
theorem payload_send (k d : Fin 3) : (sched (F := F) m ρ).payload (sendCell c k) 0 d = sendPay m ρ c k := by
  dsimp only [sched]; rw [if_neg (send_ne_bar k), if_neg (send_ne_recv k 0), if_neg (send_ne_recv k 1), if_neg (send_ne_recv k 2)]
  fin_cases k
  · rw [if_pos rfl]; rfl
  · rw [if_neg (fun h => absurd (sendS_inj h) (by decide)), if_pos rfl]; rfl
  · rw [if_neg (fun h => absurd (sendS_inj h) (by decide)), if_neg (fun h => absurd (sendS_inj h) (by decide)), if_pos rfl]; rfl

/-- The whole of the entry cell's round, no duty taken: the three peers' slots. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3, payload_bar, payload_bar, payload_bar]
theorem rest_send (k : Fin 3) : bigSep ((sched (F := F) m ρ).duties (sendCell c k) 0 \ ∅) (fun d => (sched (F := F) m ρ).payload (sendCell c k) 0 d) = sendPay m ρ c k := by
  rw [Finset.sdiff_empty, duties_send, bigSep_singleton, payload_send]
theorem rest_recv (k : Fin 3) : bigSep ((sched (F := F) m ρ).duties (recvCell c k) 0 \ ∅) (fun d => (sched (F := F) m ρ).payload (recvCell c k) 0 d) = recvPay m ρ c k := by
  rw [Finset.sdiff_empty, duties_recv, bigSep_singleton, payload_recv]

end Tables

/-! ## What each device owes at launch; the levels -/

/-- One unit to the entry cell of the device off places on; a row's credit to receive cell k of the device k + 1 places on. -/
def tB (c : Dev nD) (off : ℕ) : CellTallies nD τ sig Unit := tallyAt (barCell (peer c off)) () 1
def tR (c : Dev nD) (k : Fin 3) : CellTallies nD τ sig Unit := tallyAt (recvCell (peer c (k.val + 1)) k) () N

/-- After its three signals a device owes the three copies; at launch also the three signals — summed so that each
    statement of the body pays the last summand left. -/
def O₃ (c : Dev nD) : CellTallies nD τ sig Unit := tR c 2 + tR c 1 + tR c 0
def O₀ (c : Dev nD) : CellTallies nD τ sig Unit := O₃ c + tB c 3 + tB c 2 + tB c 1

def L (g : GSem nD τ sig) : Finset Unit := if g.1.2 = .tc then {()} else ∅
/-- Entry cells at 1, receive cells at 2, everything else (staging, send) at 0: a wait on the entry cell is below the
    copies still owed, and every other wait happens owing nothing above it. -/
def lv (g : GSem nD τ sig) (_ : Unit) : ℕ := if g.2 = .reg barS then 1 else if (∃ k : Fin 3, g.2 = .dma (recvS k)) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (k : Fin 3) (u : Unit) : lv (recvCell c k) u = 2 := by
  dsimp only [lv]; rw [if_neg (recv_ne_bar k), if_pos ⟨k, rfl⟩]

theorem O₃_pos {c : Dev nD} {g : GSem nD τ sig} {u : Unit} (h : 0 < O₃ c g u) : ∃ k : Fin 3, g = recvCell (peer c (k.val + 1)) k := by
  unfold O₃ at h
  rcases Pipeline.add_pos_cases h with h | h
  · rcases Pipeline.add_pos_cases h with h | h
    · exact ⟨2, (Pipeline.tallyAt_pos h).1⟩
    · exact ⟨1, (Pipeline.tallyAt_pos h).1⟩
  · exact ⟨0, (Pipeline.tallyAt_pos h).1⟩

theorem O₀_pos {c : Dev nD} {g : GSem nD τ sig} {u : Unit} (h : 0 < O₀ c g u) :
    (∃ k : Fin 3, g = recvCell (peer c (k.val + 1)) k) ∨ ∃ off : ℕ, g = barCell (peer c off) := by
  unfold O₀ at h
  rcases Pipeline.add_pos_cases h with h | h
  · rcases Pipeline.add_pos_cases h with h | h
    · rcases Pipeline.add_pos_cases h with h | h
      · exact .inl (O₃_pos h)
      · exact .inr ⟨3, (Pipeline.tallyAt_pos h).1⟩
    · exact .inr ⟨2, (Pipeline.tallyAt_pos h).1⟩
  · exact .inr ⟨1, (Pipeline.tallyAt_pos h).1⟩

/-- A wait on a staging or send semaphore (level 0) is below everything a device owes at launch, and fine owing nothing. -/
theorem mayWait_low (c : Dev nD) (q : DmaSem sig) (hq : ∀ k : Fin 3, (SemLoc.dma q : SemLoc sig) ≠ .dma (recvS k))
    (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have h0 : lv ((c : Thread nD τ), SemLoc.dma q) () = 0 := by
      dsimp only [lv]; rw [if_neg (fun h => by cases h), if_neg (fun ⟨k, hk⟩ => hq k hk)]
    rw [h0]
    rcases O₀_pos hg with ⟨k, rfl⟩ | ⟨off, rfl⟩
    · exact ⟨by rw [L_tc]; exact Finset.mem_singleton_self _, by rw [lv_recv]; decide⟩
    · exact ⟨by rw [L_tc]; exact Finset.mem_singleton_self _, by rw [lv_bar]; decide⟩
  · rw [MayWait_zero]; iintro -; iempintro

/-- At its entry wait a device owes the three copies only: receive cells, above its entry cell. -/
theorem mayWait_bar (c : Dev nD) :
    (levAts L lv : sProp 𝕄) ⊢ MayWait (c : Thread nD τ) (.reg barS) () (O₃ c) :=
  Pipeline.mayWait_of_levAts (by rw [L_tc]; exact Finset.mem_singleton_self _) fun g u hg => by
    obtain ⟨k, rfl⟩ := O₃_pos hg
    exact ⟨by rw [L_tc]; exact Finset.mem_singleton_self _, by rw [lv_bar, lv_recv]; decide⟩

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def qPts (c : Dev nD) (f : Buf (Elt F) ((c : Thread nD τ).loc cc0_scratch1)) : sProp 𝕄 := ((c : Thread nD τ).loc cc0_scratch1) ↦{fullShare} f
def aWhole (c : Dev nD) (f : Buf (Elt F) ((c : Thread nD τ).loc cc0_scratch0)) : sProp 𝕄 := ((c : Thread nD τ).loc cc0_scratch0) ↦{fullShare} f

/-- Every cell's invariant, under the names K the launch allocated them at, and that every cell stands at round 0 at least. -/
def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

/-- The tokens of the duties device c pays: its three signals, its three copies' landings, its three copies' returns. -/
def payToks (c : Dev nD) : sProp 𝕄 :=
  iprop((dutyTok ER (barCell (peer c 1)) 0 2 ∗ dutyTok ER (barCell (peer c 2)) 0 1 ∗ dutyTok ER (barCell (peer c 3)) 0 0)
    ∗ (dutyTok ER (recvCell (peer c 1) 0) 0 0 ∗ dutyTok ER (recvCell (peer c 2) 1) 0 0 ∗ dutyTok ER (recvCell (peer c 3) 2) 0 0)
    ∗ (dutyTok ER (sendCell c 0) 0 0 ∗ dutyTok ER (sendCell c 1) 0 0 ∗ dutyTok ER (sendCell c 2) 0 0))
/-- What stays with device c: its positions on its seven cells, and those tokens. -/
def linear (c : Dev nD) : sProp 𝕄 :=
  iprop((bigSep Finset.univ fun k : Fin 7 => atPos ER (kcell (c, k)) 0 ∅ 0) ∗ payToks c)

def ghost (K : Dev nD × Fin 7 → ℕ) (c : Dev nD) : sProp 𝕄 := iprop(records m ρ K ∗ linear c)

/-- What device c's body starts from: the ghost state at some names, the credit of its four waits others pay, the levels. -/
def start (c : Dev nD) : sProp 𝕄 :=
  iprop((∃ K, ghost m ρ K c) ∗ cred (tallyAt (barCell c) () 3)
    ∗ (cred (tallyAt (recvCell c 0) () N) ∗ cred (tallyAt (recvCell c 1) () N) ∗ cred (tallyAt (recvCell c 2) () N)) ∗ levAts L lv)

def Φ₀ (c : Dev nD) : sProp 𝕄 := iprop(start m ρ c ∗ (∃ f, aWhole c f) ∗ ∃ f, qPts c f)
/-- After the point: the two scratch buffers whole again, the six own cells closed at zero. -/
def Φ₁ (c : Dev nD) : sProp 𝕄 :=
  iprop((∃ f, aWhole c f) ∗ (∃ f, qPts c f) ∗ bigSep Finset.univ fun j : Fin 6 => semVal ((c : Thread nD τ), osem j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem inv_at (K : Dev nD × Fin 7 → ℕ) (ck : Dev nD × Fin 7) :
    (bigSep Finset.univ fun ck : Dev nD × Fin 7 => (cellInv ER (sched m ρ) (K ck) (kcell ck) : sProp 𝕄)) ⊢ cellInv ER (sched m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

end Cert.KernelIdeal.AllSum

end
-- ==== Proof.KernelIdeal.Pieces.lean ====
/-
  The geometry of the two scratch buffers, and the body's loads and stores read as values.

  The second scratch buffer is three rows of 512; row k is slot k, and the three slots are disjoint and together the
  whole buffer, so the buffer held whole is the three slots held one by one, and back. The first scratch buffer is read
  by three copies at once: its full share is cut in three. A load of row k through the buffer reads only slot k, and what
  it reads, cast to a 1 x 512 row, is what the slot's own 1 x 512 view reads. The body's last payload adds the first
  scratch buffer's row and the three slots' rows.
-/
import proofs.«901072_g7700000000001073_dist_sum_ax0_shard0_i_m1024_n512_v7x_i4_f32_1_alg».proof.Proof.KernelIdeal.Protocol
import Idealize.ShloMosaic.Lib.Pipeline.Value
import Idealize.ShloMosaic.Lib.Exec.Geometry

noncomputable section

namespace Cert.KernelIdeal.AllSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole-buffer loads and stores at the origin -/

abbrev rX : Rect S1024x512 := Rect.unit (s := S1024x512) ![0, 0] S1024x512.size inb_S1024x512_S1024x512_0_0
abbrev rA : Rect S1x512 := Rect.unit (s := S1x512) ![0, 0] S1x512.size inb_S1x512_S1x512_0_0

theorem hz2 : (![0, 0] : Fin 2 → Nat) = fun _ => 0 := funext fun a => by fin_cases a <;> rfl

/-- The load of the whole argument block reads the block. -/
theorem read_x (f : (cc0_stg0_0 : Ref sig .tc).ty.Contents (Elt F)) :
    (xM : Memref sig .tc .vmem S1024x512 .f32).view.readAt (Elt F) rX.toLoadRect f = f :=
  Memref.readAt_unit_zero (Elt F) cc0_stg0_0 hz2 _ f
/-- The load of the whole first scratch buffer reads it. -/
theorem read_a (f : (cc0_scratch0 : Ref sig .tc).ty.Contents (Elt F)) :
    (aM : Memref sig .tc .vmem S1x512 .f32).view.readAt (Elt F) rA.toLoadRect f = f :=
  Memref.readAt_unit_zero (Elt F) cc0_scratch0 hz2 _ f
/-- The store of a whole row into the first scratch buffer leaves the row. -/
theorem write_a (f w : (cc0_scratch0 : Ref sig .tc).ty.Contents (Elt F)) :
    ((aM : Memref sig .tc .vmem S1x512 .f32).access rA : View sig .tc _ _ _).write (Elt F) f w Finset.univ = w :=
  Memref.write_access_unit_zero_univ (Elt F) cc0_scratch0 hz2 _ f w
/-- The store of a whole row into the result's staging buffer leaves the row. -/
theorem write_out (f w : (cc0_stg1_0 : Ref sig .tc).ty.Contents (Elt F)) :
    ((oM : Memref sig .tc .vmem S1x512 .f32).access rA : View sig .tc _ _ _).write (Elt F) f w Finset.univ = w :=
  Memref.write_access_unit_zero_univ (Elt F) cc0_stg1_0 hz2 _ f w

/-! ## The first scratch buffer by shares -/

theorem a_set : (aM : Memref sig .tc .vmem S1x512 .f32).view.set = Finset.univ := View.set_whole _

/-- The full share of the first scratch buffer is the three shares the three copies read under. -/
theorem a_split (c : Dev nD) (f : Buf (Elt F) ((c : Thread nD τ).loc cc0_scratch0)) :
    (aWhole c f : sProp 𝕄) ⊣⊢ iprop(aPts c (shr 0) f ∗ aPts c (shr 1) f ∗ aPts c (shr 2) f) := by
  unfold aWhole aPts
  rw [a_set]
  -- the full share is its left half and its right half, and the right half its own two halves
  have h1 : ((c : Thread nD τ).loc cc0_scratch0 ↦{fullShare} f : sProp 𝕄)
      ⊣⊢ iprop(((c : Thread nD τ).loc cc0_scratch0 ↦{fullShare.left} f) ∗ ((c : Thread nD τ).loc cc0_scratch0 ↦{fullShare.right} f)) :=
    pointsTo_share (PosShare.mem_left_op_right fullShare)
  have h2 : ((c : Thread nD τ).loc cc0_scratch0 ↦{fullShare.right} f : sProp 𝕄)
      ⊣⊢ iprop(((c : Thread nD τ).loc cc0_scratch0 ↦{fullShare.right.left} f) ∗ ((c : Thread nD τ).loc cc0_scratch0 ↦{fullShare.right.right} f)) :=
    pointsTo_share (PosShare.mem_left_op_right fullShare.right)
  exact ⟨h1.1.trans (sep_mono_r h2.1), (sep_mono_r h2.2).trans h1.2⟩

/-! ## The second scratch buffer by slots -/

/-- Slot k's elements are those of row k of the buffer: the squeeze keeps the element set, and a slice of a whole
    buffer has its rectangle's. -/
theorem slot_set0 : (slotM 0).view.set = (rowR 0).set :=
  (Memref.set_view_squeeze _ squeezes_S1x1x512_S1x512).trans (View.set_slice_whole cc0_scratch1 _)
theorem slot_set1 : (slotM 1).view.set = (rowR 1).set :=
  (Memref.set_view_squeeze _ squeezes_S1x1x512_S1x512).trans (View.set_slice_whole cc0_scratch1 _)
theorem slot_set2 : (slotM 2).view.set = (rowR 2).set :=
  (Memref.set_view_squeeze _ squeezes_S1x1x512_S1x512).trans (View.set_slice_whole cc0_scratch1 _)

/-- An element lies in row k exactly when its first coordinate is k: the other two coordinates range over the whole
    of their axes. -/
theorem mem_row (k : ℕ) (hk : ∀ a, (![k, 0, 0] : Fin 3 → ℕ) a + S1x1x512.size a ≤ S3x1x512.size a) (i : S3x1x512.Idx) :
    i ∈ (Rect.unit (s := S3x1x512) ![k, 0, 0] S1x1x512.size hk).set ↔ (i 0 : ℕ) = k := by
  rw [Rect.mem_set_unit]
  have h1 : (i 1 : ℕ) < 1 := (i 1).isLt
  have h2 : (i 2 : ℕ) < 512 := (i 2).isLt
  constructor
  · intro h
    have h0 : k ≤ (i 0 : ℕ) ∧ (i 0 : ℕ) < k + 1 := h 0
    omega
  · intro h a
    fin_cases a
    · show k ≤ (i 0 : ℕ) ∧ (i 0 : ℕ) < k + 1; omega
    · show 0 ≤ (i 1 : ℕ) ∧ (i 1 : ℕ) < 0 + 1; omega
    · show 0 ≤ (i 2 : ℕ) ∧ (i 2 : ℕ) < 0 + 512; omega

theorem mem_rowR (k : Fin 3) (i : S3x1x512.Idx) : i ∈ (rowR k).set ↔ (i 0 : ℕ) = k.val := by
  fin_cases k <;> exact mem_row _ _ i

/-- Different rows share no element, -/
theorem rows_disjoint {j k : Fin 3} (h : j ≠ k) : Disjoint (rowR j).set (rowR k).set :=
  Finset.disjoint_left.mpr fun i hj hk => by
    rw [mem_rowR] at hj hk; exact h (Fin.ext (hj.symm.trans hk))

/-- and the three rows are every element: the first coordinate is 0, 1 or 2. -/
theorem rows_cover : (rowR 0).set ∪ ((rowR 1).set ∪ (rowR 2).set) = (Finset.univ : Finset S3x1x512.Idx) := by
  ext i
  have h0 : (i 0 : ℕ) < 3 := (i 0).isLt
  have e : (i 0 : ℕ) = 0 ∨ (i 0 : ℕ) = 1 ∨ (i 0 : ℕ) = 2 := by omega
  refine ⟨fun _ => Finset.mem_univ i, fun _ => ?_⟩
  rcases e with e | e | e
  · exact Finset.mem_union_left _ ((mem_rowR 0 i).mpr e)
  · exact Finset.mem_union_right _ (Finset.mem_union_left _ ((mem_rowR 1 i).mpr e))
  · exact Finset.mem_union_right _ (Finset.mem_union_right _ ((mem_rowR 2 i).mpr e))

theorem rows_disjoint0 : Disjoint (rowR 0).set ((rowR 1).set ∪ (rowR 2).set) :=
  Finset.disjoint_union_right.mpr ⟨rows_disjoint (by decide), rows_disjoint (by decide)⟩

/-- A slot held is its row of the buffer held. -/
theorem slotPts_eq0 (c : Dev nD) (f : Buf (Elt F) ((c : Thread nD τ).loc cc0_scratch1)) :
    (slotPts c 0 f : sProp 𝕄) = ((c : Thread nD τ).loc cc0_scratch1 ↦[(rowR 0).set]{fullShare} f) := by
  unfold slotPts; rw [slot_set0]
theorem slotPts_eq1 (c : Dev nD) (f : Buf (Elt F) ((c : Thread nD τ).loc cc0_scratch1)) :
    (slotPts c 1 f : sProp 𝕄) = ((c : Thread nD τ).loc cc0_scratch1 ↦[(rowR 1).set]{fullShare} f) := by
  unfold slotPts; rw [slot_set1]
theorem slotPts_eq2 (c : Dev nD) (f : Buf (Elt F) ((c : Thread nD τ).loc cc0_scratch1)) :
    (slotPts c 2 f : sProp 𝕄) = ((c : Thread nD τ).loc cc0_scratch1 ↦[(rowR 2).set]{fullShare} f) := by
  unfold slotPts; rw [slot_set2]

/-- The buffer held whole is the union of its three rows held. -/
theorem qPts_eq (c : Dev nD) (f : Buf (Elt F) ((c : Thread nD τ).loc cc0_scratch1)) :
    (qPts c f : sProp 𝕄)
      = ((c : Thread nD τ).loc cc0_scratch1 ↦[(rowR 0).set ∪ ((rowR 1).set ∪ (rowR 2).set)]{fullShare} f) := by
  unfold qPts; rw [rows_cover]

/-- The second scratch buffer held whole is its three slots held one by one, at the same contents; -/
theorem q_split (c : Dev nD) (f : Buf (Elt F) ((c : Thread nD τ).loc cc0_scratch1)) :
    (qPts c f : sProp 𝕄) ⊣⊢ iprop(slotPts c 0 f ∗ slotPts c 1 f ∗ slotPts c 2 f) := by
  rw [qPts_eq, slotPts_eq0, slotPts_eq1, slotPts_eq2]
  have h1 : ((c : Thread nD τ).loc cc0_scratch1 ↦[(rowR 0).set ∪ ((rowR 1).set ∪ (rowR 2).set)]{fullShare} f : sProp 𝕄)
      ⊣⊢ iprop(((c : Thread nD τ).loc cc0_scratch1 ↦[(rowR 0).set]{fullShare} f)
        ∗ ((c : Thread nD τ).loc cc0_scratch1 ↦[(rowR 1).set ∪ (rowR 2).set]{fullShare} f)) :=
    pointsTo_union rows_disjoint0
  have h2 : ((c : Thread nD τ).loc cc0_scratch1 ↦[(rowR 1).set ∪ (rowR 2).set]{fullShare} f : sProp 𝕄)
      ⊣⊢ iprop(((c : Thread nD τ).loc cc0_scratch1 ↦[(rowR 1).set]{fullShare} f)
        ∗ ((c : Thread nD τ).loc cc0_scratch1 ↦[(rowR 2).set]{fullShare} f)) :=
    pointsTo_union (rows_disjoint (by decide))
  exact ⟨h1.1.trans (sep_mono_r h2.1), (sep_mono_r h2.2).trans h1.2⟩
/-- and three slots held at any three contents are the buffer held whole at some contents. -/
theorem q_join (c : Dev nD) (g0 g1 g2 : Buf (Elt F) ((c : Thread nD τ).loc cc0_scratch1)) :
    iprop(slotPts c 0 g0 ∗ slotPts c 1 g1 ∗ slotPts c 2 g2) ⊢ (iprop(∃ g, qPts c g) : sProp 𝕄) := by
  rw [slotPts_eq0, slotPts_eq1, slotPts_eq2]
  -- rows 1 and 2 joined, then row 0 with them: the contents are the three given, row by row
  refine (sep_mono_r (pointsTo_join (rows_disjoint (j := 1) (k := 2) (by decide)))).trans
    ((pointsTo_join rows_disjoint0).trans ?_)
  iintro H
  iexists _
  rw [qPts_eq]
  iexact H

/-- A load of row k through the whole buffer reads elements of slot k only. -/
theorem load_slot_sub0 : (qM : Memref sig .tc .vmem S3x1x512 .f32).view.setOn (rowR 0).toLoadRect.set ⊆ (slotM 0).view.set := by
  show (qM : Memref sig .tc .vmem S3x1x512 .f32).view.setOn (rowR 0).toLoadRect.set
    ⊆ (((qM : Memref sig .tc .vmem S3x1x512 .f32).slice (rowR 0) (fun _ => rfl)).squeeze S1x512 squeezes_S1x1x512_S1x512).view.set
  rw [Memref.set_view_squeeze]
  exact Memref.setOn_subset_slice_of_within qM (rowR 0) (fun _ => rfl) (rowR 0).toLoadRect (by decide)
theorem load_slot_sub1 : (qM : Memref sig .tc .vmem S3x1x512 .f32).view.setOn (rowR 1).toLoadRect.set ⊆ (slotM 1).view.set := by
  show (qM : Memref sig .tc .vmem S3x1x512 .f32).view.setOn (rowR 1).toLoadRect.set
    ⊆ (((qM : Memref sig .tc .vmem S3x1x512 .f32).slice (rowR 1) (fun _ => rfl)).squeeze S1x512 squeezes_S1x1x512_S1x512).view.set
  rw [Memref.set_view_squeeze]
  exact Memref.setOn_subset_slice_of_within qM (rowR 1) (fun _ => rfl) (rowR 1).toLoadRect (by decide)
theorem load_slot_sub2 : (qM : Memref sig .tc .vmem S3x1x512 .f32).view.setOn (rowR 2).toLoadRect.set ⊆ (slotM 2).view.set := by
  show (qM : Memref sig .tc .vmem S3x1x512 .f32).view.setOn (rowR 2).toLoadRect.set
    ⊆ (((qM : Memref sig .tc .vmem S3x1x512 .f32).slice (rowR 2) (fun _ => rfl)).squeeze S1x512 squeezes_S1x1x512_S1x512).view.set
  rw [Memref.set_view_squeeze]
  exact Memref.setOn_subset_slice_of_within qM (rowR 2) (fun _ => rfl) (rowR 2).toLoadRect (by decide)

/-! ## The last payload -/

/-- The body's last payload: the first scratch buffer's row plus the three rows loaded from the second, each cast to a
    1 x 512 row — that is, plus what each slot's own view reads. -/
theorem pay2_eq (a : Vec F S1x512 .f32) (g0 g1 g2 : (cc0_scratch1 : Ref sig .tc).ty.Contents (Elt F)) :
    k0_pay2 a ((qM : Memref sig .tc .vmem S3x1x512 .f32).view.readAt (Elt F) (rowR 0).toLoadRect g0)
        ((qM : Memref sig .tc .vmem S3x1x512 .f32).view.readAt (Elt F) (rowR 1).toLoadRect g1)
        ((qM : Memref sig .tc .vmem S3x1x512 .f32).view.readAt (Elt F) (rowR 2).toLoadRect g2)
      = addf (addf (addf a ((slotM 0).view.read (Elt F) g0)) ((slotM 1).view.read (Elt F) g1)) ((slotM 2).view.read (Elt F) g2) := by
  unfold k0_pay2
  rfl

end Cert.KernelIdeal.AllSum

end
-- ==== Proof.KernelIdeal.Body.lean ====
/-
  One device's body, stepped from its start to its end.

  The device gives away its three slots with its three entry signals (slot 2 to the device one place on, slot 1 two
  places on, slot 0 three places on), sums its block's rows into its first scratch buffer, and waits for the three
  units on its entry cell: with them come the three peers' slots it will write. It cuts the full share of its row in
  three, starts the three copies (copy k into slot k of the device k + 1 places on), and waits for each copy's send
  and receive cell in turn: the send cells give the three shares back, the receive cells hand over its own slots,
  slot k now holding the row of the device 3 - k places on. It closes its six own cells, joins the shares, and stores
  its row plus the three slots' rows into the result.
-/
import proofs.«901072_g7700000000001073_dist_sum_ax0_shard0_i_m1024_n512_v7x_i4_f32_1_alg».proof.Proof.KernelIdeal.Protocol
import proofs.«901072_g7700000000001073_dist_sum_ax0_shard0_i_m1024_n512_v7x_i4_f32_1_alg».proof.Proof.KernelIdeal.Pieces

noncomputable section

namespace Cert.KernelIdeal.AllSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 7 → ℕ)

theorem sep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem sep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The duty a device pays with its signal at offset off hands over its OWN slot: the payer of duty d of the entry cell
    of the device off places on is the device d + 1 places further, which is the signaller when off + d + 1 = 4. -/
theorem barPay_mine (c : Dev nD) (off : ℕ) (d : Fin 3) (h : off + (d.val + 1) = 4) :
    (barPay (F := F) (peer c off) d) = iprop((∃ f, slotPts c d f) ∗ reached ER (recvCell c d) 0) := by
  unfold barPay; rw [peer_peer, h, peer_four]

/-- A slot's copy credit is a row's. -/
theorem slot_credit (k : Fin 3) : (slotM k).view.dmaCredit = N := by fin_cases k <;> rfl

/-- Copy k: device c sends its row, read under share k, into slot k of the device n = c + k + 1, whose contents it holds
    (the entry wait brought them); the send cell will give the share back, the receive cell hand n its slot filled. -/
theorem wp_send_slot (c n : Dev nD) (k : Fin 3) (hn : n = peer c (k.val + 1)) {κ₁ κ₂ : ℕ}
    {hsc : (slotM k : Memref sig (Dev.tc n : Thread nD τ).2.kind .vmem S1x512 .f32).view.ref.isScScratch = false}
    {hsrc : (aM : Memref sig .tc .vmem S1x512 .f32).view.WordExact} {hdst : (slotM k).view.WordExact}
    {hsem : DmaTarget.Typed .vmem (.dma (recvS k)) (.remote (Dev.tc n : Thread nD τ) (slotM k) (.dma (sendS k)) hsc)}
    {α : Type} {Q : α → sProp 𝕄} {kk : PUnit → Prog (TpuEff nD τ sig (Elt F) Λ₀ .tc) α}
    (fn : Buf (Elt F) ((slotM k).view.loc (peer c (k.val + 1) : Thread nD τ)))
    (O₁ O : CellTallies nD τ sig Unit) (hO : O₁ = O + tR c k) {W : Waits sig Unit} :
    iprop(cellInv ER (sched m ρ) κ₁ (sendCell c k) ∗ cellInv ER (sched m ρ) κ₂ (recvCell (peer c (k.val + 1)) k)
        ∗ aPts c (shr k) (accv m ρ c) ∗ slotPts (peer c (k.val + 1)) k fn
        ∗ owes (c : Thread nD τ) O₁ W
        ∗ dutyTok ER (sendCell c k) 0 0 ∗ reached ER (sendCell c k) 0
        ∗ dutyTok ER (recvCell (peer c (k.val + 1)) k) 0 0 ∗ reached ER (recvCell (peer c (k.val + 1)) k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma aM (.remote (Dev.tc n : Thread nD τ) (slotM k) (.dma (sendS k)) hsc) (.dma (recvS k)) hsrc hdst hsem) kk) Q) := by
  subst hn
  unfold aPts slotPts
  exact Rounds.wp_send_pointsTo 𝒱₀ ER (sched m ρ) (c : Thread nD τ) none (κ₁ := κ₁) (κ₂ := κ₂)
    (r₁ := 0) (r₂ := 0) (d₁ := 0) (d₂ := 0) (fd := fn)
    (by rw [duties_send]; exact Finset.mem_singleton_self _) (by rw [duties_recv]; exact Finset.mem_singleton_self _)
    () () N (show (slotM k).view.amount (.dma (recvS k)) = N from slot_credit k) (amount_send m ρ c k 0) (amount_recv m ρ (peer c (k.val + 1)) k 0) O hO (W := W)
    (by rw [payload_send]; unfold sendPay aPts; exact BI.Entails.refl _)
    (by
      rw [payload_recv]; unfold recvPay slotPts
      rw [peer_peer, show k.val + 1 + (3 - k.val) = 4 by have := k.isLt; omega, peer_four]
      iintro H; iexists fn; iexact H)

def bodyPre (c : Dev nD) : sProp 𝕄 :=
  iprop((ghost m ρ K c ∗ cred (tallyAt (barCell c) () 3)
      ∗ (cred (tallyAt (recvCell c 0) () N) ∗ cred (tallyAt (recvCell c 1) () N) ∗ cred (tallyAt (recvCell c 2) () N))
      ∗ levAts L lv ∗ (∃ f, aWhole c f) ∗ ∃ f, qPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 3200000 in
/-- The body, stepped from `bodyPre`, one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part5_eq_skeleton]; unfold k0_part5_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre ghost records linear payToks
  rw [sep_seven]
  iintro ⟨⟨⟨⟨⟨#HI, #HR⟩, ⟨HaB, HaS0, HaS1, HaS2, HaV0, HaV1, HaV2⟩, ⟨HtB1, HtB2, HtB3⟩, ⟨HtR0, HtR1, HtR2⟩, HtS0, HtS1, HtS2⟩,
      HcB, ⟨HcV0, HcV1, HcV2⟩, #Hlev, ⟨%fa, Ha⟩, ⟨%fq, Hq⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the invariants and round-0 marks of the cells this device touches
  ihave #HIbar := (inv_at m ρ K (c, 0)) $$ HI
  ihave #HIs0 := (inv_at m ρ K (c, 1)) $$ HI
  ihave #HIs1 := (inv_at m ρ K (c, 2)) $$ HI
  ihave #HIs2 := (inv_at m ρ K (c, 3)) $$ HI
  ihave #HIv0 := (inv_at m ρ K (c, 4)) $$ HI
  ihave #HIv1 := (inv_at m ρ K (c, 5)) $$ HI
  ihave #HIv2 := (inv_at m ρ K (c, 6)) $$ HI
  ihave #HIb1 := (inv_at m ρ K (peer c 1, 0)) $$ HI
  ihave #HIb2 := (inv_at m ρ K (peer c 2, 0)) $$ HI
  ihave #HIb3 := (inv_at m ρ K (peer c 3, 0)) $$ HI
  ihave #HIp0 := (inv_at m ρ K (peer c 1, 4)) $$ HI
  ihave #HIp1 := (inv_at m ρ K (peer c 2, 5)) $$ HI
  ihave #HIp2 := (inv_at m ρ K (peer c 3, 6)) $$ HI
  ihave #HRs0 := (reached_at (F := F) (c, 1)) $$ HR
  ihave #HRs1 := (reached_at (F := F) (c, 2)) $$ HR
  ihave #HRs2 := (reached_at (F := F) (c, 3)) $$ HR
  ihave #HRv0 := (reached_at (F := F) (c, 4)) $$ HR
  ihave #HRv1 := (reached_at (F := F) (c, 5)) $$ HR
  ihave #HRv2 := (reached_at (F := F) (c, 6)) $$ HR
  ihave #HRb1 := (reached_at (F := F) (peer c 1, 0)) $$ HR
  ihave #HRb2 := (reached_at (F := F) (peer c 2, 0)) $$ HR
  ihave #HRb3 := (reached_at (F := F) (peer c 3, 0)) $$ HR
  ihave #HRp0 := (reached_at (F := F) (peer c 1, 4)) $$ HR
  ihave #HRp1 := (reached_at (F := F) (peer c 2, 5)) $$ HR
  ihave #HRp2 := (reached_at (F := F) (peer c 3, 6)) $$ HR
  unfold O₀
  simp only [dev1_eq c, dev2_eq c, dev3_eq c, dev4_eq c, dev5_eq c, dev6_eq c]
  -- the second scratch buffer as its three slots
  ihave Hq3 := (q_split c fq).1 $$ Hq
  icases Hq3 with ⟨Hq0, Hq1, Hq2⟩
  unfold aWhole
  -- the signal to the device 1 place(s) on: duty 2 of its entry cell, with this device's slot 2
  iapply (Rounds.wp_signal 𝒱₀ ER (sched m ρ) (c : Thread nD τ) none (dst := (peer c 1 : Thread nD τ)) (κ := K (peer c 1, 0))
      (d := 2) (by rw [duties_bar]; exact Finset.mem_univ _) ((amount_bar m ρ (peer c 1) 2).trans (by decide)) () (O₃ c + tB c 3 + tB c 2) rfl)
    $$ [HO HtB1 Hq2]
  · isplitr; · iexact HIb1
    isplitl [HO]; · iexact HO
    isplitl [HtB1]; · iexact HtB1
    isplitl [Hq2]
    · rw [payload_bar, barPay_mine c 1 2 (by decide)]
      isplitl [Hq2]; · iexists fq; iexact Hq2
      iexact HRv2
    · iexact HRb1
  iintro HO
  -- the signal to the device 2 place(s) on: duty 1 of its entry cell, with this device's slot 1
  iapply (Rounds.wp_signal 𝒱₀ ER (sched m ρ) (c : Thread nD τ) none (dst := (peer c 2 : Thread nD τ)) (κ := K (peer c 2, 0))
      (d := 1) (by rw [duties_bar]; exact Finset.mem_univ _) ((amount_bar m ρ (peer c 2) 1).trans (by decide)) () (O₃ c + tB c 3) rfl)
    $$ [HO HtB2 Hq1]
  · isplitr; · iexact HIb2
    isplitl [HO]; · iexact HO
    isplitl [HtB2]; · iexact HtB2
    isplitl [Hq1]
    · rw [payload_bar, barPay_mine c 2 1 (by decide)]
      isplitl [Hq1]; · iexists fq; iexact Hq1
      iexact HRv1
    · iexact HRb2
  iintro HO
  -- the signal to the device 3 place(s) on: duty 0 of its entry cell, with this device's slot 0
  iapply (Rounds.wp_signal 𝒱₀ ER (sched m ρ) (c : Thread nD τ) none (dst := (peer c 3 : Thread nD τ)) (κ := K (peer c 3, 0))
      (d := 0) (by rw [duties_bar]; exact Finset.mem_univ _) ((amount_bar m ρ (peer c 3) 0).trans (by decide)) () (O₃ c) rfl)
    $$ [HO HtB3 Hq0]
  · isplitr; · iexact HIb3
    isplitl [HO]; · iexact HO
    isplitl [HtB3]; · iexact HtB3
    isplitl [Hq0]
    · rw [payload_bar, barPay_mine c 3 0 (by decide)]
      isplitl [Hq0]; · iexists fq; iexact Hq0
      iexact HRv0
    · iexact HRb3
  iintro HO
  -- the block's rows summed into the first scratch buffer
  iapply (wp_load 𝒱₀ (c : Thread nD τ) none Set.univ (m := xM) (Finset.subset_univ _)) $$ Hx; iintro Hx
  rw [read_x]
  iapply (wp_load 𝒱₀ (c : Thread nD τ) none Set.univ (m := aM) (Finset.subset_univ _)) $$ Ha; iintro Ha
  iapply (wp_store 𝒱₀ (c : Thread nD τ) none Set.univ (m := aM) (r := rA) (Mk := Finset.univ) (Finset.subset_univ _)) $$ Ha; iintro Ha
  rw [write_a, show k0_pay1 (xstg m ρ c) = accv m ρ c from rfl]
  -- the wait for three units on the entry cell, owing the three copies: the three peers' slots come with it
  iapply (Rounds.wp_wait_rest_token 𝒱₀ ER (sched m ρ) (c : Thread nD τ) none (κ := K (c, 0))
      (wpE_semWait_eq 𝒱₀ (c : Thread nD τ) none Set.univ) (Set.mem_univ _) () (O := O₃ c) (R := 0) (m := 0) (T := ∅)
      (by rw [expect_bar]; decide)) $$ [HcB HO HaB]
  · isplitr; · iexact HIbar
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  icases Hp with ⟨⟨⟨%fn0, Hn0⟩, #HRn0⟩, ⟨⟨%fn1, Hn1⟩, #HRn1⟩, ⟨%fn2, Hn2⟩, #HRn2⟩
  -- the row's full share cut in three
  ihave Ha' : aWhole c (accv m ρ c) $$ [Ha]
  · unfold aWhole; iexact Ha
  ihave Ha3 := (a_split c (accv m ρ c)).1 $$ Ha'
  icases Ha3 with ⟨Ha0, Ha1, Ha2⟩
  unfold O₃
  -- copy 0: this device's row, under share 0, into slot 0 of the device 1 place(s) on
  iapply (wp_send_slot m ρ c _ 0 (dev4_eq c) (κ₁ := K (c, 1)) (κ₂ := K (peer c 1, 4)) fn0 (tR c 2 + tR c 1 + tR c 0) (tR c 2 + tR c 1) rfl) $$ [Ha0 Hn0 HO HtS0 HtR0]
  · isplitr; · iexact HIs0
    isplitr; · iexact HIp0
    isplitl [Ha0]; · iexact Ha0
    isplitl [Hn0]; · iexact Hn0
    isplitl [HO]; · iexact HO
    isplitl [HtS0]; · iexact HtS0
    isplitr; · iexact HRs0
    isplitl [HtR0]; · iexact HtR0
    iexact HRn0
  iintro ⟨HcS0, HO⟩
  -- copy 1: this device's row, under share 1, into slot 1 of the device 2 place(s) on
  iapply (wp_send_slot m ρ c _ 1 (dev5_eq c) (κ₁ := K (c, 2)) (κ₂ := K (peer c 2, 5)) fn1 (tR c 2 + tR c 1) (tR c 2) rfl) $$ [Ha1 Hn1 HO HtS1 HtR1]
  · isplitr; · iexact HIs1
    isplitr; · iexact HIp1
    isplitl [Ha1]; · iexact Ha1
    isplitl [Hn1]; · iexact Hn1
    isplitl [HO]; · iexact HO
    isplitl [HtS1]; · iexact HtS1
    isplitr; · iexact HRs1
    isplitl [HtR1]; · iexact HtR1
    iexact HRn1
  iintro ⟨HcS1, HO⟩
  -- copy 2: this device's row, under share 2, into slot 2 of the device 3 place(s) on
  iapply (wp_send_slot m ρ c _ 2 (dev6_eq c) (κ₁ := K (c, 3)) (κ₂ := K (peer c 3, 6)) fn2 (tR c 2) (0) (zero_add _).symm) $$ [Ha2 Hn2 HO HtS2 HtR2]
  · isplitr; · iexact HIs2
    isplitr; · iexact HIp2
    isplitl [Ha2]; · iexact Ha2
    isplitl [Hn2]; · iexact Hn2
    isplitl [HO]; · iexact HO
    isplitl [HtS2]; · iexact HtS2
    isplitr; · iexact HRs2
    isplitl [HtR2]; · iexact HtR2
    iexact HRn2
  iintro ⟨HcS2, HO⟩
  -- the wait on send cell 0: share 0 of the row comes back
  iapply (Rounds.wp_wait_rest_token 𝒱₀ ER (sched m ρ) (c : Thread nD τ) none (κ := K (c, 1))
      (wpE_waitDma2_eq 𝒱₀ (c : Thread nD τ) none Set.univ) (Set.mem_univ _) () (O := 0) (R := 0) (m := 0) (T := ∅)
      (by rw [Nat.zero_add]; exact (expect_send m ρ c 0).symm)) $$ [HcS0 HO HaS0]
  · isplitr; · iexact HIs0
    isplitl [HcS0]; · iexact HcS0
    isplitl [HO]; · iexact HO
    isplitr; · rw [MayWait_zero]; iempintro
    iexact HaS0
  iintro ⟨HO, HaS0, -, Hpay⟩
  ihave Ha0 := (Entails.of_eq (rest_send m ρ c 0)) $$ Hpay
  -- the wait on receive cell 0: slot 0 comes back holding the row of the device 3 place(s) on
  iapply (Rounds.wp_wait_rest_token 𝒱₀ ER (sched m ρ) (c : Thread nD τ) none (κ := K (c, 4))
      (wpE_waitDma2_eq 𝒱₀ (c : Thread nD τ) none Set.univ) (Set.mem_univ _) () (O := 0) (R := 0) (m := 0) (T := ∅)
      (by rw [Nat.zero_add]; exact (slot_credit 0).trans (expect_recv m ρ c 0).symm)) $$ [HcV0 HO HaV0]
  · isplitr; · iexact HIv0
    isplitl [HcV0]; · iexact HcV0
    isplitl [HO]; · iexact HO
    isplitr; · rw [MayWait_zero]; iempintro
    iexact HaV0
  iintro ⟨HO, HaV0, -, Hpay⟩
  ihave Hv0' := (Entails.of_eq (rest_recv m ρ c 0)) $$ Hpay
  -- the wait on send cell 1: share 1 of the row comes back
  iapply (Rounds.wp_wait_rest_token 𝒱₀ ER (sched m ρ) (c : Thread nD τ) none (κ := K (c, 2))
      (wpE_waitDma2_eq 𝒱₀ (c : Thread nD τ) none Set.univ) (Set.mem_univ _) () (O := 0) (R := 0) (m := 0) (T := ∅)
      (by rw [Nat.zero_add]; exact (expect_send m ρ c 1).symm)) $$ [HcS1 HO HaS1]
  · isplitr; · iexact HIs1
    isplitl [HcS1]; · iexact HcS1
    isplitl [HO]; · iexact HO
    isplitr; · rw [MayWait_zero]; iempintro
    iexact HaS1
  iintro ⟨HO, HaS1, -, Hpay⟩
  ihave Ha1 := (Entails.of_eq (rest_send m ρ c 1)) $$ Hpay
  -- the wait on receive cell 1: slot 1 comes back holding the row of the device 2 place(s) on
  iapply (Rounds.wp_wait_rest_token 𝒱₀ ER (sched m ρ) (c : Thread nD τ) none (κ := K (c, 5))
      (wpE_waitDma2_eq 𝒱₀ (c : Thread nD τ) none Set.univ) (Set.mem_univ _) () (O := 0) (R := 0) (m := 0) (T := ∅)
      (by rw [Nat.zero_add]; exact (slot_credit 1).trans (expect_recv m ρ c 1).symm)) $$ [HcV1 HO HaV1]
  · isplitr; · iexact HIv1
    isplitl [HcV1]; · iexact HcV1
    isplitl [HO]; · iexact HO
    isplitr; · rw [MayWait_zero]; iempintro
    iexact HaV1
  iintro ⟨HO, HaV1, -, Hpay⟩
  ihave Hv1' := (Entails.of_eq (rest_recv m ρ c 1)) $$ Hpay
  -- the wait on send cell 2: share 2 of the row comes back
  iapply (Rounds.wp_wait_rest_token 𝒱₀ ER (sched m ρ) (c : Thread nD τ) none (κ := K (c, 3))
      (wpE_waitDma2_eq 𝒱₀ (c : Thread nD τ) none Set.univ) (Set.mem_univ _) () (O := 0) (R := 0) (m := 0) (T := ∅)
      (by rw [Nat.zero_add]; exact (expect_send m ρ c 2).symm)) $$ [HcS2 HO HaS2]
  · isplitr; · iexact HIs2
    isplitl [HcS2]; · iexact HcS2
    isplitl [HO]; · iexact HO
    isplitr; · rw [MayWait_zero]; iempintro
    iexact HaS2
  iintro ⟨HO, HaS2, -, Hpay⟩
  ihave Ha2 := (Entails.of_eq (rest_send m ρ c 2)) $$ Hpay
  -- the wait on receive cell 2: slot 2 comes back holding the row of the device 1 place(s) on
  iapply (Rounds.wp_wait_rest_token 𝒱₀ ER (sched m ρ) (c : Thread nD τ) none (κ := K (c, 6))
      (wpE_waitDma2_eq 𝒱₀ (c : Thread nD τ) none Set.univ) (Set.mem_univ _) () (O := 0) (R := 0) (m := 0) (T := ∅)
      (by rw [Nat.zero_add]; exact (slot_credit 2).trans (expect_recv m ρ c 2).symm)) $$ [HcV2 HO HaV2]
  · isplitr; · iexact HIv2
    isplitl [HcV2]; · iexact HcV2
    isplitl [HO]; · iexact HO
    isplitr; · rw [MayWait_zero]; iempintro
    iexact HaV2
  iintro ⟨HO, HaV2, -, Hpay⟩
  ihave Hv2' := (Entails.of_eq (rest_recv m ρ c 2)) $$ Hpay
  unfold recvPay sendPay
  icases Hv0' with ⟨%fd0, Hv0⟩
  icases Hv1' with ⟨%fd1, Hv1⟩
  icases Hv2' with ⟨%fd2, Hv2⟩
  -- the six own cells close: their counters at zero are the core's again
  imod (Rounds.cell_close ER (sched m ρ) (Set.mem_univ (K (c, 1))) (fun h => h) (R := 0 + 1) (duties_later m ρ (sendCell c 0))) $$ [HaS0] with Hz1
  · isplitr; · iexact HIs0
    iexact HaS0
  imod (Rounds.cell_close ER (sched m ρ) (Set.mem_univ (K (c, 2))) (fun h => h) (R := 0 + 1) (duties_later m ρ (sendCell c 1))) $$ [HaS1] with Hz2
  · isplitr; · iexact HIs1
    iexact HaS1
  imod (Rounds.cell_close ER (sched m ρ) (Set.mem_univ (K (c, 3))) (fun h => h) (R := 0 + 1) (duties_later m ρ (sendCell c 2))) $$ [HaS2] with Hz3
  · isplitr; · iexact HIs2
    iexact HaS2
  imod (Rounds.cell_close ER (sched m ρ) (Set.mem_univ (K (c, 4))) (fun h => h) (R := 0 + 1) (duties_later m ρ (recvCell c 0))) $$ [HaV0] with Hz4
  · isplitr; · iexact HIv0
    iexact HaV0
  imod (Rounds.cell_close ER (sched m ρ) (Set.mem_univ (K (c, 5))) (fun h => h) (R := 0 + 1) (duties_later m ρ (recvCell c 1))) $$ [HaV1] with Hz5
  · isplitr; · iexact HIv1
    iexact HaV1
  imod (Rounds.cell_close ER (sched m ρ) (Set.mem_univ (K (c, 6))) (fun h => h) (R := 0 + 1) (duties_later m ρ (recvCell c 2))) $$ [HaV2] with Hz6
  · isplitr; · iexact HIv2
    iexact HaV2
  -- the three shares of the row joined
  ihave Ha := (a_split c (accv m ρ c)).2 $$ [Ha0 Ha1 Ha2]
  · isplitl [Ha0]; · iexact Ha0
    isplitl [Ha1] <;> iassumption
  unfold aWhole slotPts
  -- the loads and the store
  iapply (wp_load 𝒱₀ (c : Thread nD τ) none Set.univ (m := aM) (Finset.subset_univ _)) $$ Ha; iintro Ha
  rw [read_a]
  iapply (wp_load 𝒱₀ (c : Thread nD τ) none Set.univ (m := qM) load_slot_sub0) $$ Hv0; iintro Hv0
  iapply (wp_load 𝒱₀ (c : Thread nD τ) none Set.univ (m := qM) load_slot_sub1) $$ Hv1; iintro Hv1
  iapply (wp_load 𝒱₀ (c : Thread nD τ) none Set.univ (m := qM) load_slot_sub2) $$ Hv2; iintro Hv2
  iapply (wp_load 𝒱₀ (c : Thread nD τ) none Set.univ (m := oM) (Finset.subset_univ _)) $$ Hout; iintro Hout
  rw [pay2_eq, View.read_write_univ, View.read_write_univ, View.read_write_univ]
  iapply (wp_store 𝒱₀ (c : Thread nD τ) none Set.univ (m := oM) (r := rA) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl, sep_six]
  isplitl [Ha Hv0 Hv1 Hv2 Hz1 Hz2 Hz3 Hz4 Hz5 Hz6]
  · isplitl [Ha]; · iexists _; unfold aWhole; iexact Ha
    isplitl [Hv0 Hv1 Hv2]
    · iapply (q_join c _ _ _)
      unfold slotPts
      isplitl [Hv0]; · iexact Hv0
      isplitl [Hv1] <;> iassumption
    · isplitl [Hz1]; · iexact Hz1
      isplitl [Hz2]; · iexact Hz2
      isplitl [Hz3]; · iexact Hz3
      isplitl [Hz4]; · iexact Hz4
      isplitl [Hz5] <;> iassumption
  isplitl [HO]
  · iexists (insert (SemLoc.dma (recvS 2), ()) (insert (SemLoc.dma (sendS 2), ()) (insert (SemLoc.dma (recvS 1), ()) (insert (SemLoc.dma (sendS 1), ())
      (insert (SemLoc.dma (recvS 0), ()) (insert (SemLoc.dma (sendS 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device c: the one grid point, from what the pipeline hands the body to what it wants back. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hrest⟩, Ha, Hq⟩, Ho, Hx, Hout⟩
  iapply (sound_body m ρ K c fun _ => bodyPost m ρ c)
  unfold bodyPre
  isplitr []
  · isplitl [Hg Hrest Ha Hq]
    · isplitl [Hg]; · iexact Hg
      icases Hrest with ⟨H1, H2, H3⟩
      isplitl [H1]; · iexact H1
      isplitl [H2]; · iexact H2
      isplitl [H3]; · iexact H3
      isplitl [Ha] <;> iassumption
    isplitl [Ho]; · iexact Ho
    isplitl [Hx] <;> iassumption
  · iintro H; iexact H

/-- info: 'Cert.KernelIdeal.AllSum.body_obligation' depends on axioms: [propext, Classical.choice, Quot.sound] -/
#guard_msgs in #print axioms Cert.KernelIdeal.AllSum.body_obligation

end Body

end Cert.KernelIdeal.AllSum

end
-- ==== Proof.KernelIdeal.Launch.lean ====
/-
  The launch of the four devices' bodies, and what the arrays hold after the run.

  Every device's body is proved from its own start: the ghost state of its seven cells, the credit of the four waits
  that other devices pay (three units on its entry cell, a row's credit on each receive cell), and its two scratch
  buffers. The launch makes that start for all four devices at once: the entry semaphore is shared by all four devices
  and not scoped to the launch, so the seven cells of every device are allocated in one global step over every device's
  own and unscoped semaphores; the tokens of each cell's duties are then dealt to the devices that pay them — an entry
  cell's duty d to the device d + 1 places on, receive cell k's to the device 3 - k places on, a send cell's to its own
  device —; what each device owes at launch is exactly what the others' waits were given as credit. From the bodies the
  library's launch theorem gives the run: every fair interleaving of the four devices terminates, and each window's
  array ends at the proof data's last contents: the argument unchanged, the result at the sum of the four rows.
-/
import proofs.«901072_g7700000000001073_dist_sum_ax0_shard0_i_m1024_n512_v7x_i4_f32_1_alg».proof.Proof.KernelIdeal.Protocol
import proofs.«901072_g7700000000001073_dist_sum_ax0_shard0_i_m1024_n512_v7x_i4_f32_1_alg».proof.Proof.Gen.KernelIdeal.Points

noncomputable section

namespace Cert.KernelIdeal.AllSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch: the cells, the tokens, the launch element -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 7 → SemLoc sig) := by
  intro k k' h
  fin_cases k <;> fin_cases k' <;> first | rfl | exact absurd h (by decide)

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

/-- The seven cells of every device. -/
def allCells : Finset (GSem nD τ sig) := Finset.univ.map ⟨kcell, kcell_injective⟩

/-- The nine duties of a device's own cells: which cell, which duty. The entry cell's three, then one for each send cell
    and each receive cell. -/
abbrev tokCell : Fin 9 → Fin 7 := fun | 0 => 0 | 1 => 0 | 2 => 0 | 3 => 1 | 4 => 2 | 5 => 3 | 6 => 4 | 7 => 5 | 8 => 6
abbrev tokDuty : Fin 9 → Fin 3 := fun | 0 => 0 | 1 => 1 | 2 => 2 | 3 => 0 | 4 => 0 | 5 => 0 | 6 => 0 | 7 => 0 | 8 => 0
theorem tokIx_inj : ∀ j j' : Fin 9, tokCell j = tokCell j' → tokDuty j = tokDuty j' → j = j' := by decide

abbrev tokOf (cj : Dev nD × Fin 9) : GSem nD τ sig × ℕ × Fin 3 := (kcell (cj.1, tokCell cj.2), 0, tokDuty cj.2)
theorem tokOf_injective : Function.Injective (tokOf : Dev nD × Fin 9 → GSem nD τ sig × ℕ × Fin 3) := by
  rintro ⟨c, j⟩ ⟨c', j'⟩ h
  have h1 : ((c, tokCell j) : Dev nD × Fin 7) = (c', tokCell j') := kcell_injective (congrArg (fun x : GSem nD τ sig × ℕ × Fin 3 => x.1) h)
  have h2 : tokDuty j = tokDuty j' := congrArg (fun x : GSem nD τ sig × ℕ × Fin 3 => x.2.2) h
  have h3 : c = c' := congrArg Prod.fst h1
  have h4 : j = j' := tokIx_inj j j' (congrArg Prod.snd h1) h2
  subst h3; subst h4; rfl

/-- The duty tokens of every device's own cells. -/
def allToks : Finset (GSem nD τ sig × ℕ × Fin 3) := Finset.univ.map ⟨tokOf, tokOf_injective⟩

/-- The launch element: the pipeline's staging cells in the first component, the protocol's cells and tokens in the second. -/
def u₀ : UU :=
  (initOf (Pipeline.cells cfgs cellOf_inj) (Pipeline.launchToks cfgs cellOf_inj), initOf allCells allToks)

/-- The duty tokens of device c's own cells, as minted. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device c: the round states of its seven cells, its positions with the rounds reached,
    the tokens of its own cells' duties. -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The protocol's component of the launch element pays for every device's share. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin9]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt round the mesh -/

/-- The three send and three receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
/-- the entry semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨HS0, HS1, HS2, HR0, HR1, HR2⟩, HB⟩
  isplitl [HB]; · iexact HB
  isplitl [HS0]; · iexact HS0
  isplitl [HS1]; · iexact HS1
  isplitl [HS2]; · iexact HS2
  isplitl [HR0]; · iexact HR0
  isplitl [HR1]; · iexact HR1
  iexact HR2

/-- One device's seven cells: each counter at zero with its round state at zero becomes the cell's invariant, at some name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 7 → ℕ) (c : Dev nD) : iprop(records m ρ K ∗ linear c) ⊢ G' m ρ c := by
  unfold G' ghost
  iintro H
  iexists K
  iexact H

/-- The tokens dealt round the mesh. Duty d of an entry cell goes to the device d + 1 places on from the cell's, that
    is: a device holds duty 2 of the cell one place on, duty 1 of the cell two places on, duty 0 of the cell three places
    on. The duty of receive cell k goes to the device 3 - k places on from the cell's: a device holds that of receive cell
    k of the device k + 1 places on. A send cell's duty stays. -/
theorem toks_around : (bigSep Finset.univ fun c : Dev nD => (toks c : sProp 𝕄)) ⊢ bigSep Finset.univ fun c : Dev nD => payToks c := by
  unfold toks payToks
  simp only [bigSep_sep']
  rw [bigSep_univ_equiv (turn 1 (by decide)) (fun c : Dev nD => (dutyTok ER (barCell c) 0 2 : sProp 𝕄)),
    bigSep_univ_equiv (turn 2 (by decide)) (fun c : Dev nD => (dutyTok ER (barCell c) 0 1 : sProp 𝕄)),
    bigSep_univ_equiv (turn 3 (by decide)) (fun c : Dev nD => (dutyTok ER (barCell c) 0 0 : sProp 𝕄)),
    bigSep_univ_equiv (turn 1 (by decide)) (fun c : Dev nD => (dutyTok ER (recvCell c 0) 0 0 : sProp 𝕄)),
    bigSep_univ_equiv (turn 2 (by decide)) (fun c : Dev nD => (dutyTok ER (recvCell c 1) 0 0 : sProp 𝕄)),
    bigSep_univ_equiv (turn 3 (by decide)) (fun c : Dev nD => (dutyTok ER (recvCell c 2) 0 0 : sProp 𝕄))]
  iintro ⟨HB0, HB1, HB2, HS0, HS1, HS2, HR0, HR1, HR2⟩
  isplitl [HB0 HB1 HB2]
  · isplitl [HB2]; · iexact HB2
    isplitl [HB1]; · iexact HB1
    iexact HB0
  isplitl [HR0 HR1 HR2]
  · isplitl [HR0]; · iexact HR0
    isplitl [HR1]; · iexact HR1
    iexact HR2
  isplitl [HS0]; · iexact HS0
  isplitl [HS1]; · iexact HS1
  iexact HS2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device's allocated cells and tokens, regrouped: the invariants and reached-marks of all twenty-eight cells are
    persistent and go to every device; the positions stay; the tokens go to their payers. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit: what the others owe a device's cells is what its waits were given -/

/-- Every device owing one unit to the entry cell of the device k places on, a device's entry cell is credited a unit. -/
theorem cred_bar (c : Dev nD) (k : ℕ) (hk : k ≤ 4) :
    (Pipeline.launchCred (fun d => tB d k) c : sProp 𝕄) ⊢ cred (tallyAt (barCell c) () 1) :=
  Pipeline.launchCred_tallyAt (.reg barS) (fun d => peer d k) (fun d => peer d (4 - k)) (turn k hk).right_inv (turn k hk).left_inv () 1 c

/-- Every device owing a row's credit to receive cell k of the device k + 1 places on, a device's receive cell k is credited a row. -/
theorem cred_recv (c : Dev nD) (k : Fin 3) :
    (Pipeline.launchCred (fun d => tR d k) c : sProp 𝕄) ⊢ cred (tallyAt (recvCell c k) () N) :=
  Pipeline.launchCred_tallyAt (.dma (recvS k)) (fun d => peer d (k.val + 1)) (fun d => peer d (4 - (k.val + 1)))
    (turn (k.val + 1) (by have := k.isLt; omega)).right_inv (turn (k.val + 1) (by have := k.isLt; omega)).left_inv () N c

theorem creds (c : Dev nD) :
    (Pipeline.launchCred O₀ c : sProp 𝕄)
      ⊢ iprop(cred (tallyAt (barCell c) () 3)
          ∗ (cred (tallyAt (recvCell c 0) () N) ∗ cred (tallyAt (recvCell c 1) () N) ∗ cred (tallyAt (recvCell c 2) () N))) := by
  show (Pipeline.launchCred (fun d => tR d 2 + tR d 1 + tR d 0 + tB d 3 + tB d 2 + tB d 1) c : sProp 𝕄) ⊢ _
  rw [Pipeline.launchCred_add, Pipeline.launchCred_add, Pipeline.launchCred_add, Pipeline.launchCred_add, Pipeline.launchCred_add]
  iintro ⟨⟨⟨⟨⟨HR2, HR1⟩, HR0⟩, HB3⟩, HB2⟩, HB1⟩
  ihave H1 := (cred_bar (F := F) c 1 (by decide)) $$ HB1
  ihave H2 := (cred_bar (F := F) c 2 (by decide)) $$ HB2
  ihave H3 := (cred_bar (F := F) c 3 (by decide)) $$ HB3
  ihave G0 := (cred_recv (F := F) c 0) $$ HR0
  ihave G1 := (cred_recv (F := F) c 1) $$ HR1
  ihave G2 := (cred_recv (F := F) c 2) $$ HR2
  isplitl [H1 H2 H3]
  · rw [← tallyAt_add (barCell c) () 2 1, ← tallyAt_add (barCell c) () 1 1]
    iapply (cred_add _ _).2
    isplitl [H1 H2]
    · iapply (cred_add _ _).2
      isplitl [H1] <;> iassumption
    iexact H3
  isplitl [G0]; · iexact G0
  isplitl [G1] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H3, HN0, HN1, HN2⟩
  imodintro
  unfold start G'
  isplitl
  · isplitl [HG]; · iexact HG
    isplitl [H3]; · iexact H3
    isplitl [HN0 HN1 HN2]
    · isplitl [HN0]; · iexact HN0
      isplitl [HN1] <;> iassumption
    iexact Hlev
  · iempintro

/-- At the point's start the two scratch buffers arrive whole at some contents. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ aWhole qPts
  iintro ⟨Hs, -, Ha, Hq⟩
  isplitl [Hs]; · iexact Hs
  isplitl [Ha] <;> iassumption

/-- At its end they go back whole, with the six own semaphores at zero. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ aWhole qPts Pipeline.ownSems0
  iintro ⟨Ha, Hq, Hz⟩
  isplitr; · iempintro
  isplitl [Hz]; · iexact Hz
  isplitl [Ha] <;> iassumption

/-- The pipeline's own waits are on the two staging semaphores: no receive semaphore, so below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> intro k <;> fin_cases k <;> decide) _ (by
      rcases t with ⟨_ | _, ht⟩
      · exact Or.inl rfl
      · exact Or.inr rfl)

/-! ## The final arrays -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From the four bodies, the run: every weakly fair execution of @main on the four devices terminates, and every final
    state has each window's array at the proof data's last contents. -/
theorem run_main_of (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the sum of the four devices' rows. -/
theorem finalA_out (c : Dev nD) : finalA m ρ c (1 : Fin 2) = outAt m ρ c := by
  have h := (dats (F := F) m ρ 0 c).arrAt_succ (1 : Fin 2) t₀
  rw [flush0_1 t₀, if_pos rfl] at h
  show (dats m ρ 0 c).arrAt (1 : Fin 2) (t₀.val + 1) = _
  rw [h]
  exact Memref.write_access_unit_zero_univ (Elt F) main_v1 (funext fun a => Nat.zero_mul _) _ _ _

/-- info: 'Cert.KernelIdeal.AllSum.run_main_of' depends on axioms: [propext, Classical.choice, Quot.sound] -/
#guard_msgs in #print axioms run_main_of
/-- info: 'Cert.KernelIdeal.AllSum.finalA_x' depends on axioms: [propext, Classical.choice, Quot.sound] -/
#guard_msgs in #print axioms finalA_x
/-- info: 'Cert.KernelIdeal.AllSum.finalA_out' depends on axioms: [propext, Classical.choice, Quot.sound] -/
#guard_msgs in #print axioms finalA_out

end Cert.KernelIdeal.AllSum

end
-- ==== Proof.KernelIdeal.Run.lean ====
/-
  The run of the four devices, with everything a claim needs of it: every weakly fair interleaving of the four
  devices' threads terminates without a fault; on every device the result array ends holding the device's own row
  plus the rows of the devices 3, 2 and 1 places on — each of the four rows once —, and the argument array ends
  unchanged.
-/
import proofs.«901072_g7700000000001073_dist_sum_ax0_shard0_i_m1024_n512_v7x_i4_f32_1_alg».proof.Proof.KernelIdeal.Body
import proofs.«901072_g7700000000001073_dist_sum_ax0_shard0_i_m1024_n512_v7x_i4_f32_1_alg».proof.Proof.KernelIdeal.Launch

noncomputable section

namespace Cert.KernelIdeal.AllSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem run : θ_run (defs (F := F)) (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩)
    (run_main_of m ρ (body_obligation m ρ))

/-- info: 'Cert.KernelIdeal.AllSum.run' depends on axioms: [propext, Classical.choice, Quot.sound] -/
#guard_msgs in #print axioms Cert.KernelIdeal.AllSum.run

end Cert.KernelIdeal.AllSum

end
-- ==== Proof.RowSum.lean ====
/-
  The arithmetic that joins the two programs at the extended reals.

  The whole array X has 4096 rows of 512 columns, cut along the rows into four blocks of 1024. One device's
  partial result is the column sums of its block (the kernel body's first payload); the kernel's final result adds
  the four partial results in an order that depends on the device, always once each; the reference sums every row of
  the whole array. Column j of either is the sum over all 4096 rows of X(r, j): row 1024 d + r of the whole is row r of
  block d, and addition of extended reals is commutative and associative, so neither the grouping into blocks nor
  the order of the blocks matters. No finiteness is used.
-/
import proofs.«901072_g7700000000001073_dist_sum_ax0_shard0_i_m1024_n512_v7x_i4_f32_1_alg».proof.Proof.Gen.KernelIdeal.Skeleton
import proofs.«901072_g7700000000001073_dist_sum_ax0_shard0_i_m1024_n512_v7x_i4_f32_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws
import Mathlib.Logic.Equiv.Fin.Basic
import Mathlib.Data.Fintype.BigOperators
import Mathlib.Algebra.BigOperators.Fin

noncomputable section

namespace Cert.RowSum

open Idealize.ShloMosaic Idealize.ShloMosaic.ValueIdx

/-- The payload at column j of its one row: the two casts of a shape to itself change nothing, the cast of the
    512-vector to a 1 × 512 row reads lane j, and the reduction over axis 0 from the zero word is the sum over
    the 1024 rows of the operand's column j. -/
theorem pay1_apply (x : Vec Ideal Cert.KernelIdeal.S1024x512 .f32) (u : Fin 1) (j : Fin 512) :
    Cert.KernelIdeal.Gen.k0_pay1 (F := Ideal) x (ix2 u j) = ∑ r : Fin 1024, (show EReal from x (ix2 r j)) := by
  unfold Cert.KernelIdeal.Gen.k0_pay1
  rw [shapeCast_self, shapeCast_self, shapeCast_a_1a_apply]
  refine (Ideal.multiReduction_add_single (φ := .f32) x _ Cert.KernelIdeal.Gen.reduces_S1024x512_S512 _ _ (ix1 j)).trans ?_
  refine Finset.sum_congr rfl fun r _ => ?_
  exact congrArg x (funext fun a => Fin.ext (by match a with | ⟨0, _⟩ => rfl | ⟨1, _⟩ => rfl))

/-- Row r, column j of block d is row 1024 d + r, column j of the whole array. -/
theorem block_rows_apply (X : (⟨Cert.ReferenceIdeal.S4096x512, .f32⟩ : BufTy).Contents (Elt Ideal)) (d : Fin 4)
    (r : Fin 1024) (j : Fin 512) :
    (Layout.block ⟨2, ![1024, 512]⟩ ⟨2, ![4096, 512]⟩ 0 4 d X) (ix2 r j)
      = X (ix2 (⟨1024 * d.val + r.val, by omega⟩ : Fin 4096) j) := by
  rw [Layout.block_apply]
  exact congrArg X (funext fun a => Fin.ext (by
    match a with
    | ⟨0, _⟩ => (show d.val * 1024 + r.val = 1024 * d.val + r.val; omega)
    | ⟨1, _⟩ => rfl))

/-- The reference at column j of its one row: the broadcast reads lane j of the reduction, which is the zero
    word's value, 0, plus the sum over all 4096 rows of column j. -/
theorem ref_apply (X : (⟨Cert.ReferenceIdeal.S4096x512, .f32⟩ : BufTy).Contents (Elt Ideal)) (u : Fin 1) (j : Fin 512) :
    Cert.ReferenceIdeal.Read.val_main_v1 (F := Ideal) X (ix2 u j) = ∑ k : Fin 4096, (show EReal from X (ix2 k j)) := by
  rw [Cert.ReferenceIdeal.Read.val_main_v1_apply, Cert.ReferenceIdeal.Read.val_main_v0_apply,
    Cert.ReferenceIdeal.Read.val_main_cst_apply]
  show (Ideal.ofBits .f32 0x00000000#32 : EReal) + _ = _
  rw [Ideal.ofBits_zero_f32, zero_add]
  refine Finset.sum_congr rfl fun k _ => ?_
  exact congrArg X (funext fun a => Fin.ext (by match a with | ⟨0, _⟩ => rfl | ⟨1, _⟩ => rfl))

/-- A sum over 4096 rows is the sum over the four blocks of the sums over each block's 1024 rows: every
    k < 4096 is 1024 d + r for exactly one pair d < 4, r < 1024. -/
theorem sum_rows {M : Type} [AddCommMonoid M] (f : Fin 4096 → M) :
    ∑ k : Fin 4096, f k = ∑ d : Fin 4, ∑ r : Fin 1024, f ⟨1024 * d.val + r.val, by omega⟩ := by
  refine (Equiv.sum_comp (finProdFinEquiv (m := 4) (n := 1024)) f).symm.trans ?_
  rw [Fintype.sum_prod_type]
  refine Finset.sum_congr rfl fun d _ => Finset.sum_congr rfl fun r _ => ?_
  exact congrArg f (Fin.ext (by show r.val + 1024 * d.val = 1024 * d.val + r.val; omega))

/-- Block `d` of the whole array: rows 1024 d … 1024 d + 1023. -/
abbrev blk (X : (⟨Cert.ReferenceIdeal.S4096x512, .f32⟩ : BufTy).Contents (Elt Ideal)) (d : Fin 4) :
    Vec Ideal Cert.KernelIdeal.S1024x512 .f32 :=
  Layout.block ⟨2, ![1024, 512]⟩ ⟨2, ![4096, 512]⟩ 0 4 d X

/-- One device's partial result: the column sums of its block, as a 1 × 512 row. -/
abbrev part (X : (⟨Cert.ReferenceIdeal.S4096x512, .f32⟩ : BufTy).Contents (Elt Ideal)) (d : Fin 4) :
    FVec Ideal Cert.KernelIdeal.S1x512 .f32 :=
  Cert.KernelIdeal.Gen.k0_pay1 (F := Ideal) (blk X d)

/-- Device d's partial result at column j: the sum over r < 1024 of the whole array at (1024 d + r, j). -/
theorem part_apply (X : (⟨Cert.ReferenceIdeal.S4096x512, .f32⟩ : BufTy).Contents (Elt Ideal)) (d : Fin 4)
    (u : Fin 1) (j : Fin 512) :
    part X d (ix2 u j)
      = ∑ r : Fin 1024, (show EReal from X (ix2 (⟨1024 * d.val + r.val, by omega⟩ : Fin 4096) j)) :=
  (pay1_apply (blk X d) u j).trans (Finset.sum_congr rfl fun r _ => block_rows_apply X d r j)

/-- The four partial results added in any order (each block once) are the reference's sum over all rows. -/
theorem total_eq (X : (⟨Cert.ReferenceIdeal.S4096x512, .f32⟩ : BufTy).Contents (Elt Ideal))
    (σ : Fin 4 → Fin 4) (hσ : Function.Bijective σ) :
    addf (addf (addf (part X (σ 0)) (part X (σ 1))) (part X (σ 2))) (part X (σ 3))
      = Cert.ReferenceIdeal.Read.val_main_v1 (F := Ideal) X := by
  funext i
  obtain ⟨u, j, rfl⟩ : ∃ (u : Fin 1) (j : Fin 512), i = ix2 u j := ⟨i 0, i 1, eq_ix2 i⟩
  -- both sides at column j, as sums of extended reals
  rw [addf_apply, addf_apply, addf_apply, ref_apply, sum_rows, part_apply, part_apply, part_apply, part_apply]
  -- the sum over d < 4 re-indexed by the bijection, then written out
  rw [← Equiv.sum_comp (Equiv.ofBijective σ hσ), Fin.sum_univ_four]
  rfl

end Cert.RowSum

end
-- ==== Proof.Value.lean ====
/-
  The kernel's result against the reference's, over the extended reals.

  The reference holds the whole 4096 x 512 array X on one device and device d of the kernel holds block d of it. The
  kernel's result on device c is the sum of four partial rows: the column sums of the blocks c, c + 3, c + 2, c + 1 (mod 4),
  which are the four blocks in some order; so it is the column sums of all 4096 rows, the reference's result, on every
  device alike.
-/
import proofs.«901072_g7700000000001073_dist_sum_ax0_shard0_i_m1024_n512_v7x_i4_f32_1_alg».proof.Proof.KernelIdeal.Run
import proofs.«901072_g7700000000001073_dist_sum_ax0_shard0_i_m1024_n512_v7x_i4_f32_1_alg».proof.Proof.RowSum

noncomputable section

namespace Cert.KernelIdeal.AllSum

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The staged argument block of a device is its argument array: the window is the whole array. -/
theorem xstg_eq (d : Dev nD) : xstg (F := Ideal) m ρ d = m ((d.tc : Thread nD τ).loc main_arg0) :=
  Memref.read_access_unit_zero (Elt Ideal) main_arg0 (funext fun a => Nat.zero_mul _) _ _

/-- The blocks a device adds up, in its order: its own, then the devices 3, 2, 1 places on. All four, each once. -/
theorem order_bijective (c : Dev nD) : Function.Bijective (![c, peer c 3, peer c 2, peer c 1] : Fin 4 → Fin 4) := by
  revert c; decide

/-- Every device's result is the reference's sum over all rows of the whole array its blocks are cut from. -/
theorem out_eq (X : (⟨Cert.ReferenceIdeal.S4096x512, .f32⟩ : BufTy).Contents (Elt Ideal))
    (hagree : ∀ c : Dev nD, m ((c.tc : Thread nD τ).loc main_arg0) = Layout.block ⟨2, ![1024, 512]⟩ ⟨2, ![4096, 512]⟩ 0 4 c X)
    (c : Dev nD) : outAt (F := Ideal) m ρ c = Cert.ReferenceIdeal.Read.val_main_v1 (F := Ideal) X := by
  unfold outAt accv
  rw [xstg_eq, xstg_eq, xstg_eq, xstg_eq, hagree c, hagree (peer c 3), hagree (peer c 2), hagree (peer c 1)]
  exact Cert.RowSum.total_eq X ![c, peer c 3, peer c 2, peer c 1] (order_bijective c)

/-- info: 'Cert.KernelIdeal.AllSum.out_eq' depends on axioms: [propext, Classical.choice, Quot.sound] -/
#guard_msgs in #print axioms Cert.KernelIdeal.AllSum.out_eq

end Cert.KernelIdeal.AllSum

end
-- ==== Proof.lean ====
/-
  The certificate of the four-device column sum: a 4096 x 512 array cut by rows over four devices, each device summing
  its 1024 rows and the four partial rows exchanged and added on every device, against the sum over all rows on one
  device.

  The two kernel programs (word-level and idealized) have one proof, generic in the float instance: the protocol and
  its proof data, one device's body stepped from its start, the launch of the four bodies, and the run with each
  result named. A frame is that run with the values dropped. The reference's run is its generated one. Over the
  extended reals the four partial rows, added in whatever order a device adds them, are the column sums of the whole
  array (addition there is commutative and associative; no finiteness is used), which is what the reference
  computes. The idealization rewrote nothing, so there is nothing to preserve.
-/
import proofs.«901072_g7700000000001073_dist_sum_ax0_shard0_i_m1024_n512_v7x_i4_f32_1_alg».proof.Defs
import proofs.«901072_g7700000000001073_dist_sum_ax0_shard0_i_m1024_n512_v7x_i4_f32_1_alg».proof.Proof.Gen.Kernel
import proofs.«901072_g7700000000001073_dist_sum_ax0_shard0_i_m1024_n512_v7x_i4_f32_1_alg».proof.Proof.Gen.KernelIdeal
import proofs.«901072_g7700000000001073_dist_sum_ax0_shard0_i_m1024_n512_v7x_i4_f32_1_alg».proof.Proof.Gen.ReferenceIdeal
import proofs.«901072_g7700000000001073_dist_sum_ax0_shard0_i_m1024_n512_v7x_i4_f32_1_alg».proof.Proof.Gen.ReferenceIdeal.Run
import proofs.«901072_g7700000000001073_dist_sum_ax0_shard0_i_m1024_n512_v7x_i4_f32_1_alg».proof.Proof.Gen.ReferenceIdeal.Read
import proofs.«901072_g7700000000001073_dist_sum_ax0_shard0_i_m1024_n512_v7x_i4_f32_1_alg».proof.Proof.Gen.Pre_finite_inputs_Kernel
import proofs.«901072_g7700000000001073_dist_sum_ax0_shard0_i_m1024_n512_v7x_i4_f32_1_alg».proof.Proof.Gen.Pre_finite_inputs_ReferenceIdeal
import proofs.«901072_g7700000000001073_dist_sum_ax0_shard0_i_m1024_n512_v7x_i4_f32_1_alg».proof.Proof.Kernel.Run
import proofs.«901072_g7700000000001073_dist_sum_ax0_shard0_i_m1024_n512_v7x_i4_f32_1_alg».proof.Proof.KernelIdeal.Run
import proofs.«901072_g7700000000001073_dist_sum_ax0_shard0_i_m1024_n512_v7x_i4_f32_1_alg».proof.Proof.Value
import Idealize.ShloMosaic.Adequacy
import Idealize.ShloMosaic.Init

noncomputable section

namespace Cert.Proof

open Idealize.ShloMosaic Idealize.SL.Sem

/-- The word-level kernel runs and leaves its argument as it was: its run with the result dropped. -/
theorem frame_k : Cert.frame_Kernel := fun m ρ _ =>
  (θ_run Cert.Kernel.defs _ _).mono (fun _ h c => (h c).2) (Cert.Kernel.AllSum.run (F := Bits) m ρ)

/-- The idealized kernel likewise. -/
theorem frame_ki : Cert.frame_KernelIdeal := fun m ρ _ =>
  (θ_run Cert.KernelIdeal.defs _ _).mono (fun _ h c => (h c).2) (Cert.KernelIdeal.AllSum.run (F := Ideal) m ρ)

/-- The reference runs and leaves its argument as it was: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end, and every device's result is the reference's: the sum over all 4096 rows of the whole array. -/
theorem algebraic : Cert.algebraic_KernelIdeal_ReferenceIdeal := by
  intro m ρ m' ρ' _ hagree
  refine ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.KernelIdeal.AllSum.out_eq m ρ _ hagree c), (h c).2⟩)
      (Cert.KernelIdeal.AllSum.run (F := Ideal) m ρ)
  · exact (θ_run Cert.ReferenceIdeal.defs _ _).mono
      (fun _ h => ⟨(h 0).1.trans (Cert.ReferenceIdeal.Read.val_main_v1_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
